-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 4294867296#32
  let main_v34 : IVec S1600000 32 := broadcastInDim S1600000 ![] bcast_S_S1600000 main_c_12
  let main_v35 : IVec S1600000 1 := cmpi .sge main_arg1 main_v34
  let main_c_13 : IVec S_ 1 := constantI S_ 1 1#1
  let main_v36 : IVec S_ 1 := (fun x v => Host.reduce IntOp.andi x v reducesTo_S1600000_S_d0 h_S_) main_v35 main_c_13
  let main_v37 : IVec S_ 1 := andi main_v33 main_v36
  let main_c_14 : IVec S_ 32 := constantI S_ 32 100000#32
  let main_v38 : IVec S1600000 32 := broadcastInDim S1600000 ![] bcast_S_S1600000 main_c_14
  let main_v39 : IVec S1600000 1 := cmpi .slt main_arg1 main_v38
  let main_c_15 : IVec S_ 1 := constantI S_ 1 1#1
  let main_v40 : IVec S_ 1 := (fun x v => Host.reduce IntOp.andi x v reducesTo_S1600000_S_d0 h_S_) main_v39 main_c_15
  let main_v41 : IVec S_ 1 := andi main_v37 main_v40
  main_v41

def fn_part1 {F : FTy → Type} [FloatOps F] (main_arg1 : IVec S1600000 32) (main_arg6 : FVec F S128x128 .f32) (main_arg7 : FVec F S128 .f32) (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 104
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x128, .f32⟩
  | .hbm, ⟨47, _⟩ => ⟨S1600000x128, .i1⟩
  | .hbm, ⟨48, _⟩ => ⟨S_, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x1, .i1⟩
  | .hbm, ⟨59, _⟩ => ⟨S_, .f32⟩
  | .hbm, ⟨60, _⟩ => ⟨S_, .f32⟩
  | .hbm, ⟨61, _⟩ => ⟨S100000x128, .i1⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1, .i32⟩
  | .hbm, ⟨75, _⟩ => ⟨S_, .i32⟩
  | .hbm, ⟨76, _⟩ => ⟨S1600000x1, .i32⟩
  | .hbm, ⟨77, _⟩ => ⟨S1600000x1, .i1⟩
  | .hbm, ⟨78, _⟩ => ⟨S1x1, .i32⟩
  | .hbm, ⟨79, _⟩ => ⟨S1600000x1, .i32⟩
  | .hbm, ⟨80, _⟩ => ⟨S1600000x1, .i1⟩
  | .hbm, ⟨81, _⟩ => ⟨S1600000x1, .i1⟩
  | .hbm, ⟨82, _⟩ => ⟨S_, .i1⟩
  | .hbm, ⟨83, _⟩ => ⟨S1600000, .i1⟩
  | .hbm, ⟨84, _⟩ => ⟨S1600000x128, .f32⟩
  | .hbm, ⟨85, _⟩ => ⟨S1600000x128, .i1⟩
  | .hbm, ⟨86, _⟩ => ⟨S_, .f32⟩
  | .hbm, ⟨87, _⟩ => ⟨S1600000x128, .f32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x1, .i1⟩
  | .hbm, ⟨97, _⟩ => ⟨S_, .f32⟩
  | .hbm, ⟨98, _⟩ => ⟨S_, .f32⟩
  | .hbm, ⟨99, _⟩ => ⟨S100000x128, .i1⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v11 : Ref sig .tc := ⟨.hbm, 50, rfl⟩
abbrev main_cst_5 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v22 : Ref sig .tc := ⟨.hbm, 88, rfl⟩
abbrev main_cst_7 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_cst_8 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S_, .f32⟩
  | .hbm, ⟨40, _⟩ => ⟨S100000x128, .i1⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .i1⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S_, .f32⟩
  | .hbm, ⟨82, _⟩ => ⟨S100000x128, .i1⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S128x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Sage.lean ====
/-
  The mathematics both programs compute, index by index, on the extended reals.

  One mean-aggregating graph layer over N = 100000 nodes with D = 128 features: at node r and feature j
      layer x n Ws Wn b (r, j) = (Σ_k x(r,k) · Ws(j,k) + b(j)) + Σ_k n(r,k) · Wn(j,k),
  the node's own features through the transposed self weights, plus the bias, plus the aggregated neighbour
  features n through the transposed neighbour weights (the grouping of the three terms is the one both programs use).
  The network's result combines the input and the two layers: h + t1 + ½ · t2 (the literal ½ kept as its word).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: one row of 128 features per node. -/
abbrev NodeFeat : Shape := ⟨2, ![100000, 128]⟩
/-- A layer's weight matrix, stored output feature × input feature. -/
abbrev Weight : Shape := ⟨2, ![128, 128]⟩

/-- One layer at node `i 0` and feature `i 1`. -/
def layer (x n : FVec Ideal NodeFeat .f32) (Ws Wn : FVec Ideal Weight .f32) (b : Fin 128 → EReal) : FVec Ideal NodeFeat .f32 :=
  fun i => ((∑ k : Fin 128, x (ix2 (n0 := 100000) (n1 := 128) (i 0) k) * Ws (ix2 (n0 := 128) (n1 := 128) (i 1) k)) + b (i 1))
    + ∑ k : Fin 128, n (ix2 (n0 := 100000) (n1 := 128) (i 0) k) * Wn (ix2 (n0 := 128) (n1 := 128) (i 1) k)

/-- The residual combination of the input and the two layers. -/
def combine (h t1 t2 : FVec Ideal NodeFeat .f32) : FVec Ideal NodeFeat .f32 :=
  fun i => (h i + t1 i) + Ideal.ofBits .f32 0x3F000000#32 * t2 i

end Cert.Sage

end
-- ==== Proof.Region0.lean ====
/-
  The first layer's region: what the grid of 20 node tiles leaves in the result array, as one function of the arrays
  the region finds at entry.
-/
import proofs.«400944_j14602888806923_1_alg».proof.Proof.Gen.KernelIdeal.Frame
import proofs.«400944_j14602888806923_1_alg».proof.Proof.Sage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one entry of the tile -/

/-- The offsets of a whole-block access, however the zeros are spelt. -/
private theorem zero_offsets : (![0, 0] : Fin 2 → Nat) = fun _ => 0 := funext fun a => by fin_cases a <;> rfl

/-- The product's row operand index on its free axis is the output row. -/
private theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The product's row operand index on its contracted axis is the summation index. -/
private theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The product's column operand index on its contracted axis is the summation index. -/
private theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The product's column operand index on its free axis is the output column. -/
private theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a transposed weight matrix, into the zero accumulator, at row `p` and feature `q`: the sum over the
    input features of the tile's row against the weight's row `q`. -/
private theorem matmul_transpose_apply (x : FVec Ideal S5000x128 .f32) (W : FVec Ideal S128x128 .f32) (p : Fin 5000) (q : Fin 128) :
    matmul dot_S5000x128_S128x128_S5000x128_1_0_0_1_n_n none x
        (transpose S128x128 [1, 0] W transposes_S128x128_p1_0_S128x128) (constant S5000x128 .f32 0x00000000#32) (ix2 p q)
      = ∑ k : Fin 128, x (ix2 p k) * W (ix2 q k) := by
  generalize hy : transpose S128x128 [1, 0] W transposes_S128x128_p1_0_S128x128 = y
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er, ← hy]
  exact congrArg (x (ix2 p k) * ·) (transpose_apply [1, 0] W transposes_S128x128_p1_0_S128x128 (ix2 k q) (ix2 q k) (fun b => match b with
    | ⟨0, _⟩ => rfl
    | ⟨1, _⟩ => rfl))

/-- The bias row spread over the tile reads the row's entry at the feature. -/
private theorem bias_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- THE BODY'S PAYLOAD at row `p` and feature `q` of the tile: the self term, the bias, the neighbour term. -/
private theorem payload_apply (x n : Vec Ideal S5000x128 .f32) (Ws Wn : Vec Ideal S128x128 .f32) (b : Vec Ideal S1x128 .f32)
    (p : Fin 5000) (q : Fin 128) :
    k0_pay1 x n Ws Wn b (ix2 p q)
      = ((∑ k : Fin 128, x (ix2 p k) * Ws (ix2 q k)) + b (ix2 0 q)) + ∑ k : Fin 128, n (ix2 p k) * Wn (ix2 q k) := by
  unfold k0_pay1
  simp only [shapeCast_self]
  rw [addf_apply, addf_apply, matmul_transpose_apply, matmul_transpose_apply, bias_apply]

/-- The payload at row `p`, feature `q` of a tile is the layer at array index `i`, once each operand block is known to
    be the rows of its array that `i` names. -/
private theorem layer_of_tile (X N : FVec Ideal Cert.Sage.NodeFeat .f32) (WS WN : FVec Ideal Cert.Sage.Weight .f32) (B : Fin 128 → EReal)
    (x n : Vec Ideal S5000x128 .f32) (ws wn : Vec Ideal S128x128 .f32) (b : Vec Ideal S1x128 .f32)
    (i : S100000x128.Idx) (p : Fin 5000) (q : Fin 128)
    (hx : ∀ k : Fin 128, x (ix2 p k) = X (ix2 (n0 := 100000) (n1 := 128) (i 0) k))
    (hn : ∀ k : Fin 128, n (ix2 p k) = N (ix2 (n0 := 100000) (n1 := 128) (i 0) k))
    (hws : ∀ k : Fin 128, ws (ix2 q k) = WS (ix2 (n0 := 128) (n1 := 128) (i 1) k))
    (hwn : ∀ k : Fin 128, wn (ix2 q k) = WN (ix2 (n0 := 128) (n1 := 128) (i 1) k))
    (hb : b (ix2 0 q) = B (i 1)) :
    k0_pay1 x n ws wn b (ix2 p q) = Cert.Sage.layer X N WS WN B i := by
  have es : ∑ k : Fin 128, x (ix2 p k) * ws (ix2 q k)
      = ∑ k : Fin 128, X (ix2 (n0 := 100000) (n1 := 128) (i 0) k) * WS (ix2 (n0 := 128) (n1 := 128) (i 1) k) :=
    Finset.sum_congr rfl fun k _ => by rw [hx k, hws k]
  have en : ∑ k : Fin 128, n (ix2 p k) * wn (ix2 q k)
      = ∑ k : Fin 128, N (ix2 (n0 := 100000) (n1 := 128) (i 0) k) * WN (ix2 (n0 := 128) (n1 := 128) (i 1) k) :=
    Finset.sum_congr rfl fun k _ => by rw [hn k, hwn k]
  rw [payload_apply, hb, es, en]
  rfl

/-! ## From tiles to the array -/

/-- The printed index maps, decided once over the 20 grid points: the node-tile windows take tile `t` at point `t`; the
    weight and bias windows take their whole array at every point. -/
private theorem tile_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region finds at entry. -/
abbrev entryLayer (c : Dev nD) : FVec Ideal Cert.Sage.NodeFeat .f32 :=
  Cert.Sage.layer (V c main_arg0) (V c main_v19) (V c main_arg3) (V c main_arg5)
    (fun j => V c main_v20 (ix2 (n0 := 1) (n1 := 128) 0 j))

/-- WHAT POINT `t` WRITES BACK is tile `t` of the layer of the entry arrays. -/
private theorem written_back_eq (c : Dev nD) (t : Fin cfg0.N) :
    (dat0 (F := Ideal) V c).flushed 5 t = ((cfg0.win 5).blk t).view.read (Elt Ideal) (entryLayer V c) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := tile_indices t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 4 t) (iblk0 V c 3 t) (ix2 p q)
    = entryLayer V c (((cfg0.win 5).blk t).view.emb (ix2 p q))
  refine layer_of_tile (V c main_arg0) (V c main_v19) (V c main_arg3) (V c main_arg5)
    (fun j => V c main_v20 (ix2 (n0 := 1) (n1 := 128) 0 j))
    (iblk0 V c 0 t) (iblk0 V c 1 t) (iblk0 V c 2 t) (iblk0 V c 4 t) (iblk0 V c 3 t)
    (((cfg0.win 5).blk t).view.emb (ix2 p q)) p q ?_ ?_ ?_ ?_ ?_
  · -- the node features' tile: rows 5000 t + p of the array
    intro k
    show V c main_arg0 (((cfg0.win 0).blk t).view.emb (ix2 p k))
      = V c main_arg0 (ix2 (n0 := 100000) (n1 := 128) ((((cfg0.win 5).blk t).view.emb (ix2 p q)) 0) k)
    refine congrArg (V c main_arg0) (funext fun a => Fin.ext ?_)
    match a with
    | ⟨0, _⟩ => show win0_0.index t (0 : Fin 2) * 5000 + 1 * p.val = win0_5.index t (0 : Fin 2) * 5000 + 1 * p.val; rw [e00, e50]
    | ⟨1, _⟩ => show win0_0.index t (1 : Fin 2) * 128 + 1 * k.val = k.val; rw [e01]; omega
  · -- the aggregated neighbours' tile: the same rows
    intro k
    show V c main_v19 (((cfg0.win 1).blk t).view.emb (ix2 p k))
      = V c main_v19 (ix2 (n0 := 100000) (n1 := 128) ((((cfg0.win 5).blk t).view.emb (ix2 p q)) 0) k)
    refine congrArg (V c main_v19) (funext fun a => Fin.ext ?_)
    match a with
    | ⟨0, _⟩ => show win0_1.index t (0 : Fin 2) * 5000 + 1 * p.val = win0_5.index t (0 : Fin 2) * 5000 + 1 * p.val; rw [e10, e50]
    | ⟨1, _⟩ => show win0_1.index t (1 : Fin 2) * 128 + 1 * k.val = k.val; rw [e11]; omega
  · -- the self weights' block is the whole matrix
    intro k
    show V c main_arg3 (((cfg0.win 2).blk t).view.emb (ix2 q k))
      = V c main_arg3 (ix2 (n0 := 128) (n1 := 128) ((((cfg0.win 5).blk t).view.emb (ix2 p q)) 1) k)
    refine congrArg (V c main_arg3) (funext fun a => Fin.ext ?_)
    match a with
    | ⟨0, _⟩ => show win0_2.index t (0 : Fin 2) * 128 + 1 * q.val = win0_5.index t (1 : Fin 2) * 128 + 1 * q.val; rw [e20, e51]
    | ⟨1, _⟩ => show win0_2.index t (1 : Fin 2) * 128 + 1 * k.val = k.val; rw [e21]; omega
  · -- the neighbour weights' block is the whole matrix
    intro k
    show V c main_arg5 (((cfg0.win 4).blk t).view.emb (ix2 q k))
      = V c main_arg5 (ix2 (n0 := 128) (n1 := 128) ((((cfg0.win 5).blk t).view.emb (ix2 p q)) 1) k)
    refine congrArg (V c main_arg5) (funext fun a => Fin.ext ?_)
    match a with
    | ⟨0, _⟩ => show win0_4.index t (0 : Fin 2) * 128 + 1 * q.val = win0_5.index t (1 : Fin 2) * 128 + 1 * q.val; rw [e40, e51]
    | ⟨1, _⟩ => show win0_4.index t (1 : Fin 2) * 128 + 1 * k.val = k.val; rw [e41]; omega
  · -- the bias block is the whole row
    show V c main_v20 (((cfg0.win 3).blk t).view.emb (ix2 0 q))
      = V c main_v20 (ix2 (n0 := 1) (n1 := 128) 0 ((((cfg0.win 5).blk t).view.emb (ix2 p q)) 1))
    refine congrArg (V c main_v20) (funext fun a => Fin.ext ?_)
    match a with
    | ⟨0, _⟩ => show win0_3.index t (0 : Fin 2) * 1 + 1 * (0 : Fin 1).val = (0 : Fin 1).val; rw [e30]; rfl
    | ⟨1, _⟩ => show win0_3.index t (1 : Fin 2) * 128 + 1 * q.val = win0_5.index t (1 : Fin 2) * 128 + 1 * q.val; rw [e31, e51]

/-- An index of the result array is in point `t`'s tile iff each coordinate is in the tile's range on its axis. -/
private theorem mem_tile (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v21).slice (win0_5.rect t)).set ↔ _
  rw [View.set_slice_whole, Rect.mem_set_unit]
  exact Iff.rfl

/-- THE TILES COVER THE ARRAY: row `r` is in the tile of point `r / 5000`. -/
private theorem covered (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  have ht : (i 0).val / 5000 < cfg0.N := by rw [hN]; omega
  obtain ⟨-, -, -, -, -, -, -, -, -, -, e50, e51⟩ := tile_indices ⟨(i 0).val / 5000, ht⟩
  refine ⟨⟨(i 0).val / 5000, ht⟩, flush0_5 _, ?_⟩
  rw [mem_tile]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]
    omega

/-- After the 20 grid points, the region's result array is the layer of its entry arrays: node features `main_arg0`,
    aggregated neighbours `main_v19`, self weights `main_arg3`, neighbour weights `main_arg5`, the bias row `main_v20`. -/
theorem layer0_array (c : Dev nD) :
    (dat0 (F := Ideal) V c).arrAt 5 cfg0.N
      = Cert.Sage.layer (V c main_arg0) (V c main_v19) (V c main_arg3) (V c main_arg5)
          (fun j => V c main_v20 (ix2 (n0 := 1) (n1 := 128) 0 j)) :=
  (dat0 (F := Ideal) V c).arrAt_eq_of_cover 5 (entryLayer V c) (fun t _ => written_back_eq V c t) covered

end Cert.KernelIdeal.Region0

end
-- ==== Proof.Region1.lean ====
/-
  The second layer's region, which also forms the network's result: what the grid of 20 node tiles leaves in the
  result array, as one function of the arrays the region finds at entry.
-/
import proofs.«400944_j14602888806923_1_alg».proof.Proof.Gen.KernelIdeal.Frame
import proofs.«400944_j14602888806923_1_alg».proof.Proof.Sage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at one entry of the tile -/

/-- The contraction's index into its left operand keeps the result's row … -/
private theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along its columns; -/
private theorem dot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- its index into the right operand runs along the rows … -/
private theorem dot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the result's column. -/
private theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times a 128 x 128 matrix into a zero accumulator, at row `p` and column `q`: the sum over the 128 shared
    features of the tile's row against the matrix's column. -/
private theorem matmul_at (x : FVec Ideal S5000x128 .f32) (w : FVec Ideal S128x128 .f32) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_rhs_row _ _).trans hk
    | ⟨1, _⟩ => exact dot_rhs_col _ _)
  rw [el, er]

/-- The transposed weights at row `k`, column `q` are the stored weights at output feature `q`, input feature `k`. -/
private theorem transpose_at {α : Type} (w : S128x128.Idx → α) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- A tile times the transpose of a stored weight matrix, at row `p` and column `q`: the tile's row against the stored
    matrix's row `q`. -/
private theorem matmul_transposed_at (x : FVec Ideal S5000x128 .f32) (w : FVec Ideal S128x128 .f32) (p : Fin 5000) (q : Fin 128) :
    matmul dot_S5000x128_S128x128_S5000x128_1_0_0_1_n_n none x (transpose S128x128 [1, 0] w transposes_S128x128_p1_0_S128x128)
        (constant S5000x128 .f32 0x00000000#32) (ix2 p q)
      = ∑ k : Fin 128, x (ix2 p k) * w (ix2 q k) := by
  rw [matmul_at]
  exact Finset.sum_congr rfl fun k _ => by rw [transpose_at]

/-- The bias row spread over the tile reads, in every row, the row's entry of that column. -/
private theorem bias_at {α : Type} (b : S1x128.Idx → α) (p : Fin 5000) (q : Fin 128) :
    broadcastTo S5000x128 b broadcasts_S1x128_S5000x128 (ix2 p q) = b (ix2 (n0 := 1) (n1 := 128) 0 q) :=
  broadcastTo_apply b broadcasts_S1x128_S5000x128 (ix2 p q) (ix2 (n0 := 1) (n1 := 128) 0 q) (fun a => match a with
    | ⟨0, _⟩ => rfl
    | ⟨1, _⟩ => rfl)

/-- The value the body stores at row `p`, column `q` of its tile: the input plus the first layer plus half of the second
    layer, the second layer being the first layer's row against the self weights, plus the bias, plus the aggregated
    neighbours' row against the neighbour weights. -/
private theorem payload_at (x0 x1 x2 : Vec Ideal S5000x128 .f32) (x3 x5 : Vec Ideal S128x128 .f32) (x4 : Vec Ideal S1x128 .f32)
    (p : Fin 5000) (q : Fin 128) :
    k1_pay1 x0 x1 x2 x3 x5 x4 (ix2 p q)
      = (x0 (ix2 p q) + x1 (ix2 p q)) + Ideal.ofBits .f32 0x3F000000#32
          * (((∑ k : Fin 128, x1 (ix2 p k) * x3 (ix2 q k)) + x4 (ix2 (n0 := 1) (n1 := 128) 0 q))
              + ∑ k : Fin 128, x2 (ix2 p k) * x5 (ix2 q k)) := by
  unfold k1_pay1
  rw [shapeCast_self x1, shapeCast_self x2, shapeCast_self x4]
  rw [addf_apply, addf_apply, mulf_apply, broadcast_apply, addf_apply, addf_apply, matmul_transposed_at, matmul_transposed_at, bias_at]
  rfl

/-! ## From the tiles to the array -/

variable (V : (c : Dev nD) → (b : Ref sig .tc) → Buf (Elt Ideal) ((c : Thread nD τ).loc b))

/-- A whole-buffer access starts at offset zero on both axes. -/
private theorem zero_offsets : (![0, 0] : Fin 2 → Nat) = fun _ => 0 :=
  funext fun a => by match a with | ⟨0, _⟩ => rfl | ⟨1, _⟩ => rfl

/-- The printed index maps over the 20 grid points: at point `t` the input, the first layer, the aggregated neighbours
    and the result take tile `t` of the node axis and the whole feature axis; the two weight matrices and the bias row
    are taken whole at every point. -/
private theorem tile_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The value stored at row `p`, column `q` of a tile whose rows are the rows `r`, … of the node arrays and whose
    weight and bias blocks are the whole arrays: the network's result at node `r`, feature `q`. -/
private theorem payload_is_result (h t1 n : FVec Ideal Cert.Sage.NodeFeat .f32) (Ws Wn : FVec Ideal Cert.Sage.Weight .f32)
    (b : FVec Ideal S1x128 .f32)
    (x0 x1 x2 : Vec Ideal S5000x128 .f32) (x3 x5 : Vec Ideal S128x128 .f32) (x4 : Vec Ideal S1x128 .f32)
    (r : Fin 100000) (p : Fin 5000) (q : Fin 128)
    (h0 : ∀ k : Fin 128, x0 (ix2 p k) = h (ix2 r k)) (h1 : ∀ k : Fin 128, x1 (ix2 p k) = t1 (ix2 r k))
    (h2 : ∀ k : Fin 128, x2 (ix2 p k) = n (ix2 r k))
    (h3 : ∀ j k : Fin 128, x3 (ix2 j k) = Ws (ix2 j k)) (h5 : ∀ j k : Fin 128, x5 (ix2 j k) = Wn (ix2 j k))
    (h4 : ∀ k : Fin 128, x4 (ix2 (n0 := 1) (n1 := 128) 0 k) = b (ix2 (n0 := 1) (n1 := 128) 0 k)) :
    k1_pay1 x0 x1 x2 x3 x5 x4 (ix2 p q)
      = Cert.Sage.combine h t1 (Cert.Sage.layer t1 n Ws Wn (fun j => b (ix2 (n0 := 1) (n1 := 128) 0 j))) (ix2 r q) := by
  rw [payload_at]
  simp only [h0, h1, h2, h3, h4, h5]
  rfl

/-- Row `p`, column `k` of the input's tile at point `t` is row `5000 t + p` of the input. -/
private theorem input_tile (c : Dev nD) (t : Fin cfg1.N) (p : Fin 5000) (k : Fin 128) (r : Fin 100000)
    (hr : r.val = 5000 * t.val + p.val) :
    (iblk1 V c 0 t : Vec Ideal S5000x128 .f32) (ix2 p k) = (V c main_arg0 : FVec Ideal Cert.Sage.NodeFeat .f32) (ix2 r k) := by
  obtain ⟨e0, e1, -⟩ := tile_indices t
  unfold iblk1
  rw [View.read_apply]
  show V c main_arg0 _ = V c main_arg0 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- Row `p`, column `k` of the first layer's tile at point `t` is row `5000 t + p` of the first layer. -/
private theorem first_layer_tile (c : Dev nD) (t : Fin cfg1.N) (p : Fin 5000) (k : Fin 128) (r : Fin 100000)
    (hr : r.val = 5000 * t.val + p.val) :
    (iblk1 V c 1 t : Vec Ideal S5000x128 .f32) (ix2 p k) = (V c main_v21 : FVec Ideal Cert.Sage.NodeFeat .f32) (ix2 r k) := by
  obtain ⟨-, -, e0, e1, -⟩ := tile_indices t
  unfold iblk1
  rw [View.read_apply]
  show V c main_v21 _ = V c main_v21 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- Row `p`, column `k` of the aggregated neighbours' tile at point `t` is row `5000 t + p` of that array. -/
private theorem neighbour_tile (c : Dev nD) (t : Fin cfg1.N) (p : Fin 5000) (k : Fin 128) (r : Fin 100000)
    (hr : r.val = 5000 * t.val + p.val) :
    (iblk1 V c 2 t : Vec Ideal S5000x128 .f32) (ix2 p k) = (V c main_v30 : FVec Ideal Cert.Sage.NodeFeat .f32) (ix2 r k) := by
  obtain ⟨-, -, -, -, e0, e1, -⟩ := tile_indices t
  unfold iblk1
  rw [View.read_apply]
  show V c main_v30 _ = V c main_v30 _
  congr 1
  funext a
  apply Fin.ext
  match a with
  | ⟨0, _⟩ => show win1_2.index t 0 * 5000 + 1 * p.val = r.val; rw [e0, hr]; omega
  | ⟨1, _⟩ => show win1_2.index t 1 * 128 + 1 * k.val = k.val; rw [e1]; omega

/-- The self weights' block at every point is the whole matrix. -/
private theorem self_weight_block (c : Dev nD) (t : Fin cfg1.N) (j k : Fin 128) :
    (iblk1 V c 3 t : Vec Ideal S128x128 .f32) (ix2 j k) = (V c main_arg6 : FVec Ideal Cert.Sage.Weight .f32) (ix2 j k) := by
  obtain ⟨-, -, -, -, -, -, e0, e1, -⟩ := tile_indices t
  unfold iblk1
  rw [View.read_apply]
  show V c main_arg6 _ = V c main_arg6 _
  congr 1
  funext a
  apply Fin.ext
  match a with
  | ⟨0, _⟩ => show win1_3.index t 0 * 128 + 1 * j.val = j.val; rw [e0]; omega
  | ⟨1, _⟩ => show win1_3.index t 1 * 128 + 1 * k.val = k.val; rw [e1]; omega

/-- The bias block at every point is the whole row. -/
private theorem bias_block (c : Dev nD) (t : Fin cfg1.N) (k : Fin 128) :
    (iblk1 V c 4 t : Vec Ideal S1x128 .f32) (ix2 (n0 := 1) (n1 := 128) 0 k)
      = (V c main_v31 : FVec Ideal S1x128 .f32) (ix2 (n0 := 1) (n1 := 128) 0 k) := by
  obtain ⟨-, -, -, -, -, -, -, -, e0, e1, -⟩ := tile_indices t
  unfold iblk1
  rw [View.read_apply]
  show V c main_v31 _ = V c main_v31 _
  congr 1
  funext a
  apply Fin.ext
  match a with
  | ⟨0, _⟩ => show win1_4.index t 0 * 1 + 1 * 0 = 0; rw [e0]
  | ⟨1, _⟩ => show win1_4.index t 1 * 128 + 1 * k.val = k.val; rw [e1]; omega

/-- The neighbour weights' block at every point is the whole matrix. -/
private theorem neighbour_weight_block (c : Dev nD) (t : Fin cfg1.N) (j k : Fin 128) :
    (iblk1 V c 5 t : Vec Ideal S128x128 .f32) (ix2 j k) = (V c main_arg8 : FVec Ideal Cert.Sage.Weight .f32) (ix2 j k) := by
  obtain ⟨-, -, -, -, -, -, -, -, -, -, e0, e1, -⟩ := tile_indices t
  unfold iblk1
  rw [View.read_apply]
  show V c main_arg8 _ = V c main_arg8 _
  congr 1
  funext a
  apply Fin.ext
  match a with
  | ⟨0, _⟩ => show win1_5.index t 0 * 128 + 1 * j.val = j.val; rw [e0]; omega
  | ⟨1, _⟩ => show win1_5.index t 1 * 128 + 1 * k.val = k.val; rw [e1]; omega

/-- The network's result as one function of the arrays the region finds at entry. -/
private abbrev result (c : Dev nD) : FVec Ideal Cert.Sage.NodeFeat .f32 :=
  Cert.Sage.combine (V c main_arg0) (V c main_v21)
    (Cert.Sage.layer (V c main_v21) (V c main_v30) (V c main_arg6) (V c main_arg8)
      (fun j => V c main_v31 (ix2 (n0 := 1) (n1 := 128) 0 j)))

/-- Row `p`, column `q` of the result's tile at point `t` sits at row `5000 t + p`, column `q` of the result array. -/
private theorem result_tile_index (t : Fin cfg1.N) (p : Fin 5000) (q : Fin 128) (r : Fin 100000)
    (hr : r.val = 5000 * t.val + p.val) :
    (((cfg1.win 6).blk t).view.emb (ix2 p q) : S100000x128.Idx) = ix2 r q := by
  obtain ⟨-, -, -, -, -, -, -, -, -, -, -, -, e0, e1⟩ := tile_indices t
  funext a
  apply Fin.ext
  match a with
  | ⟨0, _⟩ => show win1_6.index t 0 * 5000 + 1 * p.val = r.val; rw [e0, hr]; omega
  | ⟨1, _⟩ => show win1_6.index t 1 * 128 + 1 * q.val = q.val; rw [e1]; omega

/-- What point `t` writes back is tile `t` of the result. -/
private theorem tile_written (c : Dev nD) (t : Fin cfg1.N) :
    (dat1 (F := Ideal) V c).flushed 6 t = ((cfg1.win 6).blk t).view.read (Elt Ideal) (result V c) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 y⟩
  have ht : t.val < 20 := lt_of_lt_of_eq t.isLt N_1
  have hp : p.val < 5000 := p.isLt
  have hr : (⟨5000 * t.val + p.val, by omega⟩ : Fin 100000).val = 5000 * t.val + p.val := rfl
  rw [View.read_apply, result_tile_index t p q ⟨5000 * t.val + p.val, by omega⟩ hr]
  exact payload_is_result _ _ _ _ _ _ _ _ _ _ _ _ ⟨5000 * t.val + p.val, by omega⟩ p q
    (fun k => input_tile V c t p k _ hr) (fun k => first_layer_tile V c t p k _ hr) (fun k => neighbour_tile V c t p k _ hr)
    (fun j k => self_weight_block V c t j k) (fun j k => neighbour_weight_block V c t j k) (fun k => bias_block V c t k)

/-- An index of the result array is in point `t`'s tile iff each coordinate is in the tile's range on its axis. -/
private theorem mem_tile (t : Fin cfg1.N) (i : S100000x128.Idx) :
    i ∈ ((cfg1.win 6).blk t).view.set
      ↔ ∀ a : Fin 2, win1_6.index t a * S5000x128.size a ≤ (i a).val
          ∧ (i a).val < win1_6.index t a * S5000x128.size a + S5000x128.size a := by
  show i ∈ ((View.whole main_v32).slice (win1_6.rect t)).set ↔ _
  rw [View.set_slice_whole, Rect.mem_set_unit]
  exact Iff.rfl

/-- Every index of the result array is in some point's tile: row `r` is in tile `r / 5000`. -/
private theorem tiles_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, -, -, -, -, -, -, -, -, -, -, e0, e1⟩ := tile_indices ⟨(i 0).val / 5000, hN⟩
  refine ⟨⟨(i 0).val / 5000, hN⟩, flush1_6 _, ?_⟩
  rw [mem_tile]
  intro a
  match a with
  | ⟨0, _⟩ =>
    show win1_6.index ⟨(i 0).val / 5000, hN⟩ 0 * 5000 ≤ (i 0).val
      ∧ (i 0).val < win1_6.index ⟨(i 0).val / 5000, hN⟩ 0 * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ 1 * 128 ≤ (i 1).val
      ∧ (i 1).val < win1_6.index ⟨(i 0).val / 5000, hN⟩ 1 * 128 + 128
    rw [e1]; omega

/-- After the 20 grid points, the region's result array is the input plus the first layer's result plus half the second
    layer of its entry arrays: input `main_arg0`, first layer `main_v21`, aggregated neighbours `main_v30`, self weights
    `main_arg6`, neighbour weights `main_arg8`, the bias row `main_v31`. -/
theorem layer1_array (c : Dev nD) :
    (dat1 (F := Ideal) V c).arrAt 6 cfg1.N
      = Cert.Sage.combine (V c main_arg0) (V c main_v21)
          (Cert.Sage.layer (V c main_v21) (V c main_v30) (V c main_arg6) (V c main_arg8)
            (fun j => V c main_v31 (ix2 (n0 := 1) (n1 := 128) 0 j))) :=
  (dat1 (F := Ideal) V c).arrAt_eq_of_cover 6 (result V c) (fun t _ => tile_written V c t) tiles_cover

end Cert.KernelIdeal.Region1

end
-- ==== Proof.KerNeigh.lean ====
/-
  The neighbour aggregation the kernel's program computes on the host, as one term of the node features x and the edge
  lists src, dst (both layers use it, the second on the first layer's result):
    • every edge reads row src(e) of x, a negative index counting from the end; an index that is still not a row after
      that is replaced by the fill word (`takeFill`);
    • the rows are summed into their destination nodes, and each node's in-degree is the same sum of ones (`degree`);
    • a node with at least one incoming edge gets the sum times the reciprocal of its degree, every other node zero.
-/
import proofs.«400944_j14602888806923_1_alg».proof.Proof.Gen.KernelIdeal

noncomputable section

namespace Cert.KernelIdeal.Agg

open Cert.KernelIdeal Cert.KernelIdeal.Gen Idealize.ShloMosaic

variable {F : FTy → Type} [FloatOps F]

/-- The edge's source index with a negative index counted from the end, as the [E,1] column the gather reads. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: the wrapped index is a row of the table, 0 ≤ index ≤ 99999. -/
def inRange (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gathered rows, the fill word where the index is no row. -/
def takeFill (x : FVec F S100000x128 .f32) (src : IVec S1600000 32) : FVec F S1600000x128 .f32 :=
  select (broadcastInDim S1600000x128 ![0] bcast_S1600000_S1600000x128_0 (inRange (wrapIdx src)))
    (Host.gather gather_S100000x128_S1600000x1_S1600000x128_1_0_n_n_0_1_1128 x (wrapIdx src))
    (broadcastInDim S1600000x128 ![] bcast_S_S1600000x128 (constant S_ .f32 0x7FC00000#32))

/-- A node's in-degree: a one summed in for every edge that ends at it. -/
def degree (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The node has an incoming edge: its degree is positive. -/
def hasNeigh (F : FTy → Type) [FloatOps F] (dst : IVec S1600000 32) : IVec S100000 1 :=
  cmpf (F := F) .ogt (degree (F := F) dst) (broadcastInDim S100000 ![] bcast_S_S100000 (constant S_ .f32 0x00000000#32))

/-- The reciprocal of the degree (of at least one), zero at a node without incoming edges. -/
def invDegree (dst : IVec S1600000 32) : FVec F S100000 .f32 :=
  select (hasNeigh F dst)
    (Host.divf (broadcastInDim S100000 ![] bcast_S_S100000 (constant S_ .f32 0x3F800000#32))
      (maximumf (degree dst) (broadcastInDim S100000 ![] bcast_S_S100000 (constant S_ .f32 0x3F800000#32))))
    (broadcastInDim S100000 ![] bcast_S_S100000 (constant S_ .f32 0x00000000#32))

/-- The mean of the incoming neighbours' rows, zero at a node without incoming edges. -/
def neighMean (x : FVec F S100000x128 .f32) (src dst : IVec S1600000 32) : FVec F S100000x128 .f32 :=
  select
    (broadcastInDim S100000x128 ![0, 1] bcast_S100000x1_S100000x128_0_1
      (broadcastInDim S100000x1 ![0] bcast_S100000_S100000x1_0 (hasNeigh F dst)))
    (mulf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 dst)
        (takeFill x src))
      (broadcastInDim S100000x128 ![0, 1] bcast_S100000x1_S100000x128_0_1
        (broadcastInDim S100000x1 ![0] bcast_S100000_S100000x1_0 (invDegree dst))))
    (broadcastInDim S100000x128 ![] bcast_S_S100000x128 (constant S_ .f32 0x00000000#32))

end Cert.KernelIdeal.Agg

end
-- ==== Proof.HostValues.lean ====
/-
  What the host operations of the kernel's program leave in the arrays each region reads: the arguments untouched, the
  bias as a row, and the aggregated neighbours as `Agg.neighMean` of the node features the layer works on.
-/
import proofs.«400944_j14602888806923_1_alg».proof.Proof.Gen.KernelIdeal.Frame
import proofs.«400944_j14602888806923_1_alg».proof.Proof.KerNeigh
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The stretches one at a time, over any float instance and any contents before the stretch

The neighbour mean is computed by five stretches. Each is read here as a function of what the buffers held before it; the
outlined take is read in three parts. The facts are then chained from the launch memory. They are stated over an
arbitrary float instance, so that the operations stay opaque, and used at the ideal one. -/

/-- Two lines of host operations run one after the other. -/
private theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The outlined take in three parts: the index wrapped, the range test, and the gather with its fill. -/
private abbrev takeA {F : FTy → Type} [FloatOps F] : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_arg1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_arg1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_arg1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0) ]
private abbrev takeB {F : FTy → Type} [FloatOps F] : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_) ]
private abbrev takeC {F : FTy → Type} [FloatOps F] : List (HloOp τ sig (Elt F)) :=
  [ StableHlo.TRef.binary (.of main_arg0 : StableHlo.TRef sig ⟨S100000x128, .f32⟩) (.of main_call1_v5 : StableHlo.TRef sig ⟨S1600000x1, .i32⟩) (.of main_call1_v13 : StableHlo.TRef sig ⟨S1600000x128, .f32⟩) (fun x i => Host.gather gather_S100000x128_S1600000x1_S1600000x128_1_0_n_n_0_1_1128 x i),
    StableHlo.TRef.unary (.of main_call1_v12 : StableHlo.TRef sig ⟨S1600000, .i1⟩) (.of main_call1_v14 : StableHlo.TRef sig ⟨S1600000x128, .i1⟩) (broadcastInDim S1600000x128 ![0] bcast_S1600000_S1600000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x128, .f32⟩) (broadcastInDim S1600000x128 ![] bcast_S_S1600000x128),
    StableHlo.TRef.ternary (.of main_call1_v14 : StableHlo.TRef sig ⟨S1600000x128, .i1⟩) (.of main_call1_v13 : StableHlo.TRef sig ⟨S1600000x128, .f32⟩) (.of main_call1_v15 : StableHlo.TRef sig ⟨S1600000x128, .f32⟩) (.of main_v11 : StableHlo.TRef sig ⟨S1600000x128, .f32⟩) select ]

/-- The second layer's outlined take, in the same three parts. -/
private abbrev take2A {F : FTy → Type} [FloatOps F] : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_arg1 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_arg1 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_arg1 : StableHlo.TRef sig ⟨S1600000, .i32⟩) (.of main_call3_v4 : StableHlo.TRef sig ⟨S1600000, .i32⟩) select,
    StableHlo.TRef.unary main_call3_call0.v0 (.of main_call3_v5 : StableHlo.TRef sig ⟨S1600000x1, .i32⟩) (broadcastInDim S1600000x1 ![0] bcast_S1600000_S1600000x1_0) ]
private abbrev take2B {F : FTy → Type} [FloatOps F] : List (HloOp τ sig (Elt F)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle),
    StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_) ]
private abbrev take2C {F : FTy → Type} [FloatOps F] : List (HloOp τ sig (Elt F)) :=
  [ StableHlo.TRef.binary (.of main_v21 : StableHlo.TRef sig ⟨S100000x128, .f32⟩) (.of main_call3_v5 : StableHlo.TRef sig ⟨S1600000x1, .i32⟩) (.of main_call3_v13 : StableHlo.TRef sig ⟨S1600000x128, .f32⟩) (fun x i => Host.gather gather_S100000x128_S1600000x1_S1600000x128_1_0_n_n_0_1_1128 x i),
    StableHlo.TRef.unary (.of main_call3_v12 : StableHlo.TRef sig ⟨S1600000, .i1⟩) (.of main_call3_v14 : StableHlo.TRef sig ⟨S1600000x128, .i1⟩) (broadcastInDim S1600000x128 ![0] bcast_S1600000_S1600000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1600000x128, .f32⟩) (broadcastInDim S1600000x128 ![] bcast_S_S1600000x128),
    StableHlo.TRef.ternary (.of main_call3_v14 : StableHlo.TRef sig ⟨S1600000x128, .i1⟩) (.of main_call3_v13 : StableHlo.TRef sig ⟨S1600000x128, .f32⟩) (.of main_call3_v15 : StableHlo.TRef sig ⟨S1600000x128, .f32⟩) (.of main_v22 : StableHlo.TRef sig ⟨S1600000x128, .f32⟩) select ]

/-- A stretch of host operations leaves a reference none of them writes as it was. -/
local macro "stretch_keeps" : tactic =>
  `(tactic| (refine StableHlo.after_of_forall_not_mem _ _ (List.forall_iff_forall_mem.mp ?_)
             simp only [hostOps0, hostOps0_1, hostOps0_2, hostOps0_3, hostOps0_4, hostOps0_5, hostOps1, hostOps1_1, hostOps1_2, hostOps1_3,
               takeA, takeB, takeC, take2A, take2B, take2C,
               List.Forall, StableHlo.nullary_writes, StableHlo.unary_writes, StableHlo.binary_writes, StableHlo.ternary_writes,
               StableHlo.reshape_writes, Finset.mem_singleton]
             repeat' apply And.intro
             all_goals exact StableHlo.devRef_ne_of_ne (by decide)))

section Stages
variable {F : FTy → Type} [FloatOps F]
variable (V : Valuation τ sig (Elt F))

/-- The first stretch: whether a node has an incoming edge, the reciprocal of its degree of at least one, and a zero. -/
private theorem deg_has : StableHlo.after hostOps0 V (Proc.devRef .tc main_v5) = Agg.hasNeigh F (V (Proc.devRef .tc main_arg2) : IVec S1600000 32) := by
  after_results_simp
  unfold Agg.hasNeigh Agg.degree
  with_reducible rfl
private theorem deg_recip : StableHlo.after hostOps0 V (Proc.devRef .tc main_v9) =
    (Host.divf (broadcastInDim S100000 ![] bcast_S_S100000 (constant S_ .f32 0x3F800000#32))
      (maximumf (Agg.degree (F := F) (V (Proc.devRef .tc main_arg2) : IVec S1600000 32)) (broadcastInDim S100000 ![] bcast_S_S100000 (constant S_ .f32 0x3F800000#32))) : FVec F S100000 .f32) := by
  after_results_simp
  unfold Agg.degree
  with_reducible rfl
private theorem deg_zero : StableHlo.after hostOps0 V (Proc.devRef .tc main_cst_4) = (constant S_ .f32 0x00000000#32 : FVec F S_ .f32) := by
  after_results_simp
/-- The outlined where of the reciprocal degree. -/
private theorem deg_where : StableHlo.after hostOps0_1 V (Proc.devRef .tc main_v10) =
      (select (V (Proc.devRef .tc main_v5) : IVec S100000 1) (V (Proc.devRef .tc main_v9) : FVec F S100000 .f32)
        (broadcastInDim S100000 ![] bcast_S_S100000 (V (Proc.devRef .tc main_cst_4) : FVec F S_ .f32)) : FVec F S100000 .f32) := by
  after_results_simp
  simp only [StableHlo.TRef.ofBuf, StableHlo.TRef.toBuf, cast_eq, id]

private theorem take_split : (hostOps0_2 : List (HloOp τ sig (Elt F))) = takeA ++ (takeB ++ takeC) := rfl
private theorem takeA_idx : StableHlo.after takeA V (Proc.devRef .tc main_call1_v5) = Agg.wrapIdx (V (Proc.devRef .tc main_arg1) : IVec S1600000 32) := by
  after_results_simp
  simp only [StableHlo.TRef.ofBuf, StableHlo.TRef.toBuf, cast_eq]
  unfold Agg.wrapIdx
  with_reducible rfl
private theorem takeA_x : StableHlo.after takeA V (Proc.devRef .tc main_arg0) = V (Proc.devRef .tc main_arg0) := by stretch_keeps
private theorem takeB_ok : StableHlo.after takeB V (Proc.devRef .tc main_call1_v12) = Agg.inRange (V (Proc.devRef .tc main_call1_v5) : IVec S1600000x1 32) := by
  after_results_simp
  simp only [StableHlo.TRef.ofBuf, StableHlo.TRef.toBuf, cast_eq]
  unfold Agg.inRange
  with_reducible rfl
private theorem takeB_idx : StableHlo.after takeB V (Proc.devRef .tc main_call1_v5) = V (Proc.devRef .tc main_call1_v5) := by stretch_keeps
private theorem takeB_x : StableHlo.after takeB V (Proc.devRef .tc main_arg0) = V (Proc.devRef .tc main_arg0) := by stretch_keeps
private theorem takeC_out : StableHlo.after takeC V (Proc.devRef .tc main_v11) =
    (select (broadcastInDim S1600000x128 ![0] bcast_S1600000_S1600000x128_0 (V (Proc.devRef .tc main_call1_v12) : IVec S1600000 1))
      (Host.gather gather_S100000x128_S1600000x1_S1600000x128_1_0_n_n_0_1_1128 (V (Proc.devRef .tc main_arg0) : FVec F S100000x128 .f32)
        (V (Proc.devRef .tc main_call1_v5) : IVec S1600000x1 32))
      (broadcastInDim S1600000x128 ![] bcast_S_S1600000x128 (constant S_ .f32 0x7FC00000#32)) : FVec F S1600000x128 .f32) := by
  after_results_simp
  simp only [StableHlo.TRef.ofBuf, StableHlo.TRef.toBuf, cast_eq]
/-- The outlined take leaves the gathered rows with their fill. -/
private theorem take_out : StableHlo.after hostOps0_2 V (Proc.devRef .tc main_v11) =
    Agg.takeFill (F := F) (V (Proc.devRef .tc main_arg0) : FVec F S100000x128 .f32) (V (Proc.devRef .tc main_arg1) : IVec S1600000 32) := by
  rw [take_split, after_append, after_append, takeC_out, takeB_ok, takeB_idx, takeB_x, takeA_idx, takeA_x]
  unfold Agg.takeFill
  with_reducible rfl

/-- The scatter-add of the taken rows times the broadcast reciprocal degree. -/
private theorem agg_prod : StableHlo.after hostOps0_3 V (Proc.devRef .tc main_v17) =
    (mulf (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (V (Proc.devRef .tc main_arg2) : IVec S1600000 32))
        (V (Proc.devRef .tc main_v11) : FVec F S1600000x128 .f32))
      (broadcastInDim S100000x128 ![0, 1] bcast_S100000x1_S100000x128_0_1
        (broadcastInDim S100000x1 ![0] bcast_S100000_S100000x1_0 (V (Proc.devRef .tc main_v10) : FVec F S100000 .f32))) : FVec F S100000x128 .f32) := by
  after_results_simp
private theorem agg_has : StableHlo.after hostOps0_3 V (Proc.devRef .tc main_v18) =
    (broadcastInDim S100000x1 ![0] bcast_S100000_S100000x1_0 (V (Proc.devRef .tc main_v5) : IVec S100000 1) : IVec S100000x1 1) := by
  after_results_simp
private theorem agg_zero : StableHlo.after hostOps0_3 V (Proc.devRef .tc main_cst_6) = (constant S_ .f32 0x00000000#32 : FVec F S_ .f32) := by
  after_results_simp
/-- The outlined where of the mean. -/
private theorem agg_where : StableHlo.after hostOps0_4 V (Proc.devRef .tc main_v19) =
    (select (broadcastInDim S100000x128 ![0, 1] bcast_S100000x1_S100000x128_0_1 (V (Proc.devRef .tc main_v18) : IVec S100000x1 1))
      (V (Proc.devRef .tc main_v17) : FVec F S100000x128 .f32)
      (broadcastInDim S100000x128 ![] bcast_S_S100000x128 (V (Proc.devRef .tc main_cst_6) : FVec F S_ .f32)) : FVec F S100000x128 .f32) := by
  after_results_simp
  simp only [StableHlo.TRef.ofBuf, StableHlo.TRef.toBuf, cast_eq, id]

private theorem k2_has : StableHlo.after hostOps0_2 V (Proc.devRef .tc main_v5) = V (Proc.devRef .tc main_v5) := by stretch_keeps
private theorem k2_dst : StableHlo.after hostOps0_2 V (Proc.devRef .tc main_arg2) = V (Proc.devRef .tc main_arg2) := by stretch_keeps
private theorem k2_inv : StableHlo.after hostOps0_2 V (Proc.devRef .tc main_v10) = V (Proc.devRef .tc main_v10) := by stretch_keeps
private theorem k1_has : StableHlo.after hostOps0_1 V (Proc.devRef .tc main_v5) = V (Proc.devRef .tc main_v5) := by stretch_keeps
private theorem k1_x : StableHlo.after hostOps0_1 V (Proc.devRef .tc main_arg0) = V (Proc.devRef .tc main_arg0) := by stretch_keeps
private theorem k1_src : StableHlo.after hostOps0_1 V (Proc.devRef .tc main_arg1) = V (Proc.devRef .tc main_arg1) := by stretch_keeps
private theorem k1_dst : StableHlo.after hostOps0_1 V (Proc.devRef .tc main_arg2) = V (Proc.devRef .tc main_arg2) := by stretch_keeps
private theorem k0_x : StableHlo.after hostOps0 V (Proc.devRef .tc main_arg0) = V (Proc.devRef .tc main_arg0) := by stretch_keeps
private theorem k0_src : StableHlo.after hostOps0 V (Proc.devRef .tc main_arg1) = V (Proc.devRef .tc main_arg1) := by stretch_keeps
private theorem k0_dst : StableHlo.after hostOps0 V (Proc.devRef .tc main_arg2) = V (Proc.devRef .tc main_arg2) := by stretch_keeps
private theorem k5_out : StableHlo.after hostOps0_5 V (Proc.devRef .tc main_v19) = V (Proc.devRef .tc main_v19) := by stretch_keeps

variable (m : (ℓ : Loc nD τ sig) → Buf (Elt F) ℓ) (ρ : Dev nD → PrngReg) (c : Dev nD)

private theorem entry0_neigh_gen :
    V6 m ρ c main_v19 = Agg.neighMean (F := F) (m ((c.tc : Thread nD τ).loc main_arg0))
      (m ((c.tc : Thread nD τ).loc main_arg1)) (m ((c.tc : Thread nD τ).loc main_arg2)) := by
  have e0 : W0 m ρ c (Proc.devRef .tc main_arg0) = m ((c.tc : Thread nD τ).loc main_arg0) := rfl
  have e1 : W0 m ρ c (Proc.devRef .tc main_arg1) = m ((c.tc : Thread nD τ).loc main_arg1) := rfl
  have e2 : W0 m ρ c (Proc.devRef .tc main_arg2) = m ((c.tc : Thread nD τ).loc main_arg2) := rfl
  show StableHlo.after hostOps0_5 (StableHlo.after hostOps0_4 (StableHlo.after hostOps0_3 (StableHlo.after hostOps0_2
    (StableHlo.after hostOps0_1 (StableHlo.after hostOps0 (W0 m ρ c)))))) (Proc.devRef .tc main_v19) = _
  rw [k5_out, agg_where, agg_has, agg_prod, agg_zero, take_out, k2_has, k2_dst, k2_inv, deg_where, k1_has, k1_x, k1_src, k1_dst,
    deg_has, deg_recip, deg_zero, k0_x, k0_src, k0_dst, e0, e1, e2]
  unfold Agg.neighMean Agg.invDegree
  with_reducible rfl

/-! ### The second layer's stretches: the same operations over the first region's result array -/
section Second

private theorem take2_split : (hostOps1 : List (HloOp τ sig (Elt F))) = take2A ++ (take2B ++ take2C) := rfl
private theorem take2A_idx : StableHlo.after take2A V (Proc.devRef .tc main_call3_v5) = Agg.wrapIdx (V (Proc.devRef .tc main_arg1) : IVec S1600000 32) := by
  after_results_simp
  simp only [StableHlo.TRef.ofBuf, StableHlo.TRef.toBuf, cast_eq]
  unfold Agg.wrapIdx
  with_reducible rfl
private theorem take2A_x : StableHlo.after take2A V (Proc.devRef .tc main_v21) = V (Proc.devRef .tc main_v21) := by stretch_keeps
private theorem take2B_ok : StableHlo.after take2B V (Proc.devRef .tc main_call3_v12) = Agg.inRange (V (Proc.devRef .tc main_call3_v5) : IVec S1600000x1 32) := by
  after_results_simp
  simp only [StableHlo.TRef.ofBuf, StableHlo.TRef.toBuf, cast_eq]
  unfold Agg.inRange
  with_reducible rfl
private theorem take2B_idx : StableHlo.after take2B V (Proc.devRef .tc main_call3_v5) = V (Proc.devRef .tc main_call3_v5) := by stretch_keeps
private theorem take2B_x : StableHlo.after take2B V (Proc.devRef .tc main_v21) = V (Proc.devRef .tc main_v21) := by stretch_keeps
private theorem take2C_out : StableHlo.after take2C V (Proc.devRef .tc main_v22) =
    (select (broadcastInDim S1600000x128 ![0] bcast_S1600000_S1600000x128_0 (V (Proc.devRef .tc main_call3_v12) : IVec S1600000 1))
      (Host.gather gather_S100000x128_S1600000x1_S1600000x128_1_0_n_n_0_1_1128 (V (Proc.devRef .tc main_v21) : FVec F S100000x128 .f32)
        (V (Proc.devRef .tc main_call3_v5) : IVec S1600000x1 32))
      (broadcastInDim S1600000x128 ![] bcast_S_S1600000x128 (constant S_ .f32 0x7FC00000#32)) : FVec F S1600000x128 .f32) := by
  after_results_simp
  simp only [StableHlo.TRef.ofBuf, StableHlo.TRef.toBuf, cast_eq]
/-- The outlined take leaves the gathered rows with their fill. -/
private theorem take2_out : StableHlo.after hostOps1 V (Proc.devRef .tc main_v22) =
    Agg.takeFill (F := F) (V (Proc.devRef .tc main_v21) : FVec F S100000x128 .f32) (V (Proc.devRef .tc main_arg1) : IVec S1600000 32) := by
  rw [take2_split, after_append, after_append, take2C_out, take2B_ok, take2B_idx, take2B_x, take2A_idx, take2A_x]
  unfold Agg.takeFill
  with_reducible rfl

/-- The scatter-add of the taken rows times the broadcast reciprocal degree. -/
private theorem agg2_prod : StableHlo.after hostOps1_1 V (Proc.devRef .tc main_v28) =
    (mulf (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (V (Proc.devRef .tc main_arg2) : IVec S1600000 32))
        (V (Proc.devRef .tc main_v22) : FVec F S1600000x128 .f32))
      (broadcastInDim S100000x128 ![0, 1] bcast_S100000x1_S100000x128_0_1
        (broadcastInDim S100000x1 ![0] bcast_S100000_S100000x1_0 (V (Proc.devRef .tc main_v10) : FVec F S100000 .f32))) : FVec F S100000x128 .f32) := by
  after_results_simp
private theorem agg2_has : StableHlo.after hostOps1_1 V (Proc.devRef .tc main_v29) =
    (broadcastInDim S100000x1 ![0] bcast_S100000_S100000x1_0 (V (Proc.devRef .tc main_v5) : IVec S100000 1) : IVec S100000x1 1) := by
  after_results_simp
private theorem agg2_zero : StableHlo.after hostOps1_1 V (Proc.devRef .tc main_cst_8) = (constant S_ .f32 0x00000000#32 : FVec F S_ .f32) := by
  after_results_simp
/-- The outlined where of the mean. -/
private theorem agg2_where : StableHlo.after hostOps1_2 V (Proc.devRef .tc main_v30) =
    (select (broadcastInDim S100000x128 ![0, 1] bcast_S100000x1_S100000x128_0_1 (V (Proc.devRef .tc main_v29) : IVec S100000x1 1))
      (V (Proc.devRef .tc main_v28) : FVec F S100000x128 .f32)
      (broadcastInDim S100000x128 ![] bcast_S_S100000x128 (V (Proc.devRef .tc main_cst_8) : FVec F S_ .f32)) : FVec F S100000x128 .f32) := by
  after_results_simp
  simp only [StableHlo.TRef.ofBuf, StableHlo.TRef.toBuf, cast_eq, id]

private theorem k13_out : StableHlo.after hostOps1_3 V (Proc.devRef .tc main_v30) = V (Proc.devRef .tc main_v30) := by stretch_keeps
private theorem k10_has : StableHlo.after hostOps1 V (Proc.devRef .tc main_v5) = V (Proc.devRef .tc main_v5) := by stretch_keeps
private theorem k10_dst : StableHlo.after hostOps1 V (Proc.devRef .tc main_arg2) = V (Proc.devRef .tc main_arg2) := by stretch_keeps
private theorem k10_inv : StableHlo.after hostOps1 V (Proc.devRef .tc main_v10) = V (Proc.devRef .tc main_v10) := by stretch_keeps
private theorem k5_has : StableHlo.after hostOps0_5 V (Proc.devRef .tc main_v5) = V (Proc.devRef .tc main_v5) := by stretch_keeps
private theorem k4_has : StableHlo.after hostOps0_4 V (Proc.devRef .tc main_v5) = V (Proc.devRef .tc main_v5) := by stretch_keeps
private theorem k3_has : StableHlo.after hostOps0_3 V (Proc.devRef .tc main_v5) = V (Proc.devRef .tc main_v5) := by stretch_keeps
private theorem k5_inv : StableHlo.after hostOps0_5 V (Proc.devRef .tc main_v10) = V (Proc.devRef .tc main_v10) := by stretch_keeps
private theorem k4_inv : StableHlo.after hostOps0_4 V (Proc.devRef .tc main_v10) = V (Proc.devRef .tc main_v10) := by stretch_keeps
private theorem k3_inv : StableHlo.after hostOps0_3 V (Proc.devRef .tc main_v10) = V (Proc.devRef .tc main_v10) := by stretch_keeps
end Second

/-- Across the first region the degree test and the reciprocal degree stay as the first stretches left them, and the
    edge lists as launched: the region writes none of the four. -/
private theorem exit0_has : W7 m ρ c (Proc.devRef .tc main_v5) = Agg.hasNeigh F (m ((c.tc : Thread nD τ).loc main_arg2)) := by
  have e2 : W0 m ρ c (Proc.devRef .tc main_arg2) = m ((c.tc : Thread nD τ).loc main_arg2) := rfl
  rw [W7_of_ne m ρ c main_v5 (by decide)]
  show StableHlo.after hostOps0_5 (StableHlo.after hostOps0_4 (StableHlo.after hostOps0_3 (StableHlo.after hostOps0_2
    (StableHlo.after hostOps0_1 (StableHlo.after hostOps0 (W0 m ρ c)))))) (Proc.devRef .tc main_v5) = _
  rw [k5_has, k4_has, k3_has, k2_has, k1_has, deg_has, e2]
private theorem exit0_inv : W7 m ρ c (Proc.devRef .tc main_v10) = Agg.invDegree (F := F) (m ((c.tc : Thread nD τ).loc main_arg2)) := by
  have e2 : W0 m ρ c (Proc.devRef .tc main_arg2) = m ((c.tc : Thread nD τ).loc main_arg2) := rfl
  rw [W7_of_ne m ρ c main_v10 (by decide)]
  show StableHlo.after hostOps0_5 (StableHlo.after hostOps0_4 (StableHlo.after hostOps0_3 (StableHlo.after hostOps0_2
    (StableHlo.after hostOps0_1 (StableHlo.after hostOps0 (W0 m ρ c)))))) (Proc.devRef .tc main_v10) = _
  rw [k5_inv, k4_inv, k3_inv, k2_inv, deg_where, deg_has, deg_recip, deg_zero, e2]
  unfold Agg.invDegree
  with_reducible rfl
private theorem exit0_src : W7 m ρ c (Proc.devRef .tc main_arg1) = m ((c.tc : Thread nD τ).loc main_arg1) :=
  (W7_of_ne m ρ c main_arg1 (by decide)).trans <|
    calc W6 m ρ c (Proc.devRef .tc main_arg1)
      _ = W5 m ρ c (Proc.devRef .tc main_arg1) := by stretch_keeps
      _ = W4 m ρ c (Proc.devRef .tc main_arg1) := by stretch_keeps
      _ = W3 m ρ c (Proc.devRef .tc main_arg1) := by stretch_keeps
      _ = W2 m ρ c (Proc.devRef .tc main_arg1) := by stretch_keeps
      _ = W1 m ρ c (Proc.devRef .tc main_arg1) := by stretch_keeps
      _ = W0 m ρ c (Proc.devRef .tc main_arg1) := by stretch_keeps
      _ = m ((c.tc : Thread nD τ).loc main_arg1) := rfl
private theorem exit0_dst : W7 m ρ c (Proc.devRef .tc main_arg2) = m ((c.tc : Thread nD τ).loc main_arg2) :=
  (W7_of_ne m ρ c main_arg2 (by decide)).trans <|
    calc W6 m ρ c (Proc.devRef .tc main_arg2)
      _ = W5 m ρ c (Proc.devRef .tc main_arg2) := by stretch_keeps
      _ = W4 m ρ c (Proc.devRef .tc main_arg2) := by stretch_keeps
      _ = W3 m ρ c (Proc.devRef .tc main_arg2) := by stretch_keeps
      _ = W2 m ρ c (Proc.devRef .tc main_arg2) := by stretch_keeps
      _ = W1 m ρ c (Proc.devRef .tc main_arg2) := by stretch_keeps
      _ = W0 m ρ c (Proc.devRef .tc main_arg2) := by stretch_keeps
      _ = m ((c.tc : Thread nD τ).loc main_arg2) := rfl

private theorem entry1_neigh_gen :
    V11 m ρ c main_v30 = Agg.neighMean (F := F) (W7 m ρ c (Proc.devRef .tc main_v21))
      (m ((c.tc : Thread nD τ).loc main_arg1)) (m ((c.tc : Thread nD τ).loc main_arg2)) := by
  show StableHlo.after hostOps1_3 (StableHlo.after hostOps1_2 (StableHlo.after hostOps1_1 (StableHlo.after hostOps1 (W7 m ρ c))))
    (Proc.devRef .tc main_v30) = _
  rw [k13_out, agg2_where, agg2_has, agg2_prod, agg2_zero, take2_out, k10_has, k10_dst, k10_inv,
    exit0_has, exit0_inv, exit0_src, exit0_dst]
  unfold Agg.neighMean
  with_reducible rfl
end Stages

variable (m : (ℓ : Loc nD τ sig) → Buf (Elt Ideal) ℓ) (ρ : Dev nD → PrngReg) (c : Dev nD)

/-! ## At the first region's entry -/

theorem entry0_h : V6 m ρ c main_arg0 = m ((c.tc : Thread nD τ).loc main_arg0) :=
  calc W6 m ρ c (Proc.devRef .tc main_arg0)
    _ = W5 m ρ c (Proc.devRef .tc main_arg0) := by stretch_keeps
    _ = W4 m ρ c (Proc.devRef .tc main_arg0) := by stretch_keeps
    _ = W3 m ρ c (Proc.devRef .tc main_arg0) := by stretch_keeps
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c.tc : Thread nD τ).loc main_arg0) := rfl
theorem entry0_wself : V6 m ρ c main_arg3 = m ((c.tc : Thread nD τ).loc main_arg3) :=
  calc W6 m ρ c (Proc.devRef .tc main_arg3)
    _ = W5 m ρ c (Proc.devRef .tc main_arg3) := by stretch_keeps
    _ = W4 m ρ c (Proc.devRef .tc main_arg3) := by stretch_keeps
    _ = W3 m ρ c (Proc.devRef .tc main_arg3) := by stretch_keeps
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c.tc : Thread nD τ).loc main_arg3) := rfl
theorem entry0_wneigh : V6 m ρ c main_arg5 = m ((c.tc : Thread nD τ).loc main_arg5) :=
  calc W6 m ρ c (Proc.devRef .tc main_arg5)
    _ = W5 m ρ c (Proc.devRef .tc main_arg5) := by stretch_keeps
    _ = W4 m ρ c (Proc.devRef .tc main_arg5) := by stretch_keeps
    _ = W3 m ρ c (Proc.devRef .tc main_arg5) := by stretch_keeps
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c.tc : Thread nD τ).loc main_arg5) := rfl
/-- The bias row is the bias vector laid along the features. -/
theorem entry0_bias (j : Fin 128) :
    V6 m ρ c main_v20 (ix2 (n0 := 1) (n1 := 128) 0 j) = m ((c.tc : Thread nD τ).loc main_arg4) (ix1 (n := 128) j) := by
  show StableHlo.after hostOps0_5 (W5 m ρ c) (Proc.devRef .tc main_v20) _ = _
  after_results
  exact shapeCast_a_1a_apply (W0 m ρ c (Proc.devRef .tc main_arg4)) shapeCasts_S128_S1x128 0 j

theorem entry0_neigh :
    V6 m ρ c main_v19 = Agg.neighMean (F := Ideal) (m ((c.tc : Thread nD τ).loc main_arg0))
      (m ((c.tc : Thread nD τ).loc main_arg1)) (m ((c.tc : Thread nD τ).loc main_arg2)) :=
  entry0_neigh_gen (F := Ideal) m ρ c

/-! ## At the second region's entry: the first region's result array is what that region left -/

theorem entry1_h : V11 m ρ c main_arg0 = m ((c.tc : Thread nD τ).loc main_arg0) :=
  ((W12_arr m ρ c 0).trans (((dat1 (V11 m ρ) c).arrAt_in 0 rfl _).trans (A_eq1 (V11 m ρ) c 0))).symm.trans (W12_main_arg0 m ρ c)
theorem entry1_t1 : V11 m ρ c main_v21 = W7 m ρ c (Proc.devRef .tc main_v21) :=
  calc W11 m ρ c (Proc.devRef .tc main_v21)
    _ = W10 m ρ c (Proc.devRef .tc main_v21) := by stretch_keeps
    _ = W9 m ρ c (Proc.devRef .tc main_v21) := by stretch_keeps
    _ = W8 m ρ c (Proc.devRef .tc main_v21) := by stretch_keeps
    _ = W7 m ρ c (Proc.devRef .tc main_v21) := by stretch_keeps
theorem entry1_wself : V11 m ρ c main_arg6 = m ((c.tc : Thread nD τ).loc main_arg6) :=
  ((W12_arr m ρ c 3).trans (((dat1 (V11 m ρ) c).arrAt_in 3 rfl _).trans (A_eq1 (V11 m ρ) c 3))).symm.trans (W12_main_arg6 m ρ c)
theorem entry1_wneigh : V11 m ρ c main_arg8 = m ((c.tc : Thread nD τ).loc main_arg8) :=
  ((W12_arr m ρ c 5).trans (((dat1 (V11 m ρ) c).arrAt_in 5 rfl _).trans (A_eq1 (V11 m ρ) c 5))).symm.trans (W12_main_arg8 m ρ c)
theorem entry1_bias (j : Fin 128) :
    V11 m ρ c main_v31 (ix2 (n0 := 1) (n1 := 128) 0 j) = m ((c.tc : Thread nD τ).loc main_arg7) (ix1 (n := 128) j) := by
  have e7 : W10 m ρ c (Proc.devRef .tc main_arg7) = m ((c.tc : Thread nD τ).loc main_arg7) :=
    calc W10 m ρ c (Proc.devRef .tc main_arg7)
      _ = W11 m ρ c (Proc.devRef .tc main_arg7) := by symm; stretch_keeps
      _ = W12 m ρ c (Proc.devRef .tc main_arg7) := (W12_of_ne m ρ c main_arg7 (by decide)).symm
      _ = m ((c.tc : Thread nD τ).loc main_arg7) := W12_main_arg7 m ρ c
  have e : V11 m ρ c main_v31 = fun i => shapeCast S1x128 (W10 m ρ c (Proc.devRef .tc main_arg7)) shapeCasts_S128_S1x128 i := by
    show StableHlo.after hostOps1_3 (W10 m ρ c) (Proc.devRef .tc main_v31) = _
    generalize W10 m ρ c = V10
    after_results
    rfl
  rw [e, e7]
  exact shapeCast_a_1a_apply _ shapeCasts_S128_S1x128 0 j
theorem entry1_neigh :
    V11 m ρ c main_v30 = Agg.neighMean (F := Ideal) (W7 m ρ c (Proc.devRef .tc main_v21))
      (m ((c.tc : Thread nD τ).loc main_arg1)) (m ((c.tc : Thread nD τ).loc main_arg2)) :=
  entry1_neigh_gen (F := Ideal) m ρ c

end Cert.KernelIdeal.HostVal

end
-- ==== Proof.KernelValue.lean ====
/-
  The kernel program's result array as one function of its nine argument arrays.

  The second pallas_call's result array after its grid is input + first layer + half the second layer of the arrays it finds
  at entry; those are the arguments, the first pallas_call's result array, and the neighbour mean of that array, which the
  host operations in between compute. The first pallas_call's result array is likewise the layer of the arguments and of
  the neighbour mean of the node features.
-/
import proofs.«400944_j14602888806923_1_alg».proof.Proof.Region0
import proofs.«400944_j14602888806923_1_alg».proof.Proof.Region1
import proofs.«400944_j14602888806923_1_alg».proof.Proof.HostValues
import proofs.«400944_j14602888806923_1_alg».proof.Proof.KerNeigh
import proofs.«400944_j14602888806923_1_alg».proof.Proof.Sage

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- The first layer as the kernel's program computes it: the layer over its own neighbour mean. -/
def layer1 (h : FVec Ideal S100000x128 .f32) (src dst : IVec S1600000 32) (Ws0 : FVec Ideal S128x128 .f32)
    (b0 : FVec Ideal S128 .f32) (Wn0 : FVec Ideal S128x128 .f32) : FVec Ideal S100000x128 .f32 :=
  Cert.Sage.layer h (Agg.neighMean (F := Ideal) h src dst) Ws0 Wn0 (fun j => b0 (ix1 (n := 128) j))

/-- The whole network as the kernel's program computes it. -/
def network (h : FVec Ideal S100000x128 .f32) (src dst : IVec S1600000 32) (Ws0 : FVec Ideal S128x128 .f32)
    (b0 : FVec Ideal S128 .f32) (Wn0 Ws1 : FVec Ideal S128x128 .f32) (b1 : FVec Ideal S128 .f32)
    (Wn1 : FVec Ideal S128x128 .f32) : FVec Ideal S100000x128 .f32 :=
  Cert.Sage.combine h (layer1 h src dst Ws0 b0 Wn0)
    (Cert.Sage.layer (layer1 h src dst Ws0 b0 Wn0) (Agg.neighMean (F := Ideal) (layer1 h src dst Ws0 b0 Wn0) src dst) Ws1 Wn1
      (fun j => b1 (ix1 (n := 128) j)))

/-- Equal arguments give equal layers. -/
theorem layer_congr {x x' n n' : FVec Ideal S100000x128 .f32} {Ws Ws' Wn Wn' : FVec Ideal S128x128 .f32} {b b' : Fin 128 → EReal}
    (ex : x = x') (en : n = n') (es : Ws = Ws') (ew : Wn = Wn') (eb : b = b') :
    Cert.Sage.layer x n Ws Wn b = Cert.Sage.layer x' n' Ws' Wn' b' := by
  subst ex en es ew eb; rfl

/-- Equal arguments give equal combinations. -/
theorem combine_congr {h h' t t' u u' : FVec Ideal S100000x128 .f32} (eh : h = h') (et : t = t') (eu : u = u') :
    Cert.Sage.combine h t u = Cert.Sage.combine h' t' u' := by
  subst eh et eu; rfl

variable (m : (ℓ : Loc nD τ sig) → Buf (Elt Ideal) ℓ) (ρ : Dev nD → PrngReg) (c : Dev nD)

/-- The first pallas_call leaves the first layer of the arguments in its result array. -/
theorem first_layer_array :
    W7 m ρ c (Proc.devRef .tc main_v21)
      = layer1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (W7_arr m ρ c 5).trans ((Region0.layer0_array (V6 m ρ) c).trans
    (layer_congr (HostVal.entry0_h m ρ c) (HostVal.entry0_neigh m ρ c) (HostVal.entry0_wself m ρ c)
      (HostVal.entry0_wneigh m ρ c) (funext fun j => HostVal.entry0_bias m ρ c j)))

/-- The second pallas_call leaves the network's result in its result array. -/
theorem result_array :
    W12 m ρ c (Proc.devRef .tc main_v32)
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  have et : V11 m ρ c main_v21 = layer1 (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) :=
    (HostVal.entry1_t1 m ρ c).trans (first_layer_array m ρ c)
  have en : V11 m ρ c main_v30 = Agg.neighMean (F := Ideal)
      (layer1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)) (m ((c.tc : Thread nD τ).loc main_arg2)) :=
    (HostVal.entry1_neigh m ρ c).trans
      (congrArg (fun t => Agg.neighMean (F := Ideal) t (m ((c.tc : Thread nD τ).loc main_arg1)) (m ((c.tc : Thread nD τ).loc main_arg2)))
        (first_layer_array m ρ c))
  (W12_arr m ρ c 6).trans ((Region1.layer1_array (V11 m ρ) c).trans
    (combine_congr (HostVal.entry1_h m ρ c) et
      (layer_congr et en (HostVal.entry1_wself m ρ c) (HostVal.entry1_wneigh m ρ c)
        (funext fun j => HostVal.entry1_bias m ρ c j))))

end Cert.KernelIdeal.KValue

end
-- ==== Proof.RefValue.lean ====
/-
  The reference's result as the same mathematics: its composed term, read one operation at a time, is the input plus the
  first layer plus half the second layer, each layer over the reference's own neighbour mean (`Read.val_main_v22`, the
  mean as the reference computes it, as one function of the node features and the edge lists).
-/
import proofs.«400944_j14602888806923_1_alg».proof.Proof.RefRead
import proofs.«400944_j14602888806923_1_alg».proof.Proof.Sage
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's neighbour mean of the node features `x` over the edges (src, dst): the stage `main_v22` of its first
    layer, which the second layer repeats on the first layer's result. -/
abbrev neighMean (x : FVec Ideal S100000x128 .f32) (src dst : IVec S1600000 32) : FVec Ideal S100000x128 .f32 :=
  val_main_v22 (F := Ideal) x src dst

/-- The reference's first layer as the layer of the spec. -/
def layer1 (h : FVec Ideal S100000x128 .f32) (src dst : IVec S1600000 32) (Ws0 : FVec Ideal S128x128 .f32)
    (b0 : FVec Ideal S128 .f32) (Wn0 : FVec Ideal S128x128 .f32) : FVec Ideal S100000x128 .f32 :=
  Cert.Sage.layer h (neighMean h src dst) Ws0 Wn0 (fun j => b0 (ix1 (n := 128) j))

/-- The second layer's neighbour mean is the first layer's neighbour mean, taken of the first layer's result: the
    second layer repeats the first layer's operations one for one. -/
private theorem mean_second {F : FTy → Type} [FloatOps F] (h : (⟨S100000x128, .f32⟩ : BufTy).Contents (Elt F))
    (src dst : (⟨S1600000, .i32⟩ : BufTy).Contents (Elt F)) (Ws0 : (⟨S128x128, .f32⟩ : BufTy).Contents (Elt F))
    (b0 : (⟨S128, .f32⟩ : BufTy).Contents (Elt F)) (Wn0 : (⟨S128x128, .f32⟩ : BufTy).Contents (Elt F)) :
    val_main_v53 (F := F) h src dst Ws0 b0 Wn0
      = val_main_v22 (F := F) (val_main_v30 (F := F) h src dst Ws0 b0 Wn0) src dst := rfl

/-- The left operand of the product %24 is read at row `i 0`, column `k`. -/
private theorem lidx24 (i : S100000x128.Idx) (k : Fin 128) :
    lidx_main_v24 i k = ix2 (n0 := 100000) (n1 := 128) (i 0) k :=
  funext fun a => Fin.ext (by match a with | ⟨0, _⟩ => rfl | ⟨1, _⟩ => rfl)

/-- The transposed weights %23 at row `k`, column `i 1` are the weights at row `i 1`, column `k`. -/
private theorem widx24 (i : S100000x128.Idx) (k : Fin 128) :
    idx_main_v23 (ridx_main_v24 i k) = ix2 (n0 := 128) (n1 := 128) (i 1) k :=
  funext fun a => Fin.ext (by match a with | ⟨0, _⟩ => rfl | ⟨1, _⟩ => rfl)

/-- The left operand of the product %29 is read at row `i 0`, column `k`. -/
private theorem lidx29 (i : S100000x128.Idx) (k : Fin 128) :
    lidx_main_v29 i k = ix2 (n0 := 100000) (n1 := 128) (i 0) k :=
  funext fun a => Fin.ext (by match a with | ⟨0, _⟩ => rfl | ⟨1, _⟩ => rfl)

/-- The transposed weights %28 at row `k`, column `i 1` are the weights at row `i 1`, column `k`. -/
private theorem widx29 (i : S100000x128.Idx) (k : Fin 128) :
    idx_main_v28 (ridx_main_v29 i k) = ix2 (n0 := 128) (n1 := 128) (i 1) k :=
  funext fun a => Fin.ext (by match a with | ⟨0, _⟩ => rfl | ⟨1, _⟩ => rfl)

/-- The left operand of the product %55 is read at row `i 0`, column `k`. -/
private theorem lidx55 (i : S100000x128.Idx) (k : Fin 128) :
    lidx_main_v55 i k = ix2 (n0 := 100000) (n1 := 128) (i 0) k :=
  funext fun a => Fin.ext (by match a with | ⟨0, _⟩ => rfl | ⟨1, _⟩ => rfl)

/-- The transposed weights %54 at row `k`, column `i 1` are the weights at row `i 1`, column `k`. -/
private theorem widx55 (i : S100000x128.Idx) (k : Fin 128) :
    idx_main_v54 (ridx_main_v55 i k) = ix2 (n0 := 128) (n1 := 128) (i 1) k :=
  funext fun a => Fin.ext (by match a with | ⟨0, _⟩ => rfl | ⟨1, _⟩ => rfl)

/-- The left operand of the product %60 is read at row `i 0`, column `k`. -/
private theorem lidx60 (i : S100000x128.Idx) (k : Fin 128) :
    lidx_main_v60 i k = ix2 (n0 := 100000) (n1 := 128) (i 0) k :=
  funext fun a => Fin.ext (by match a with | ⟨0, _⟩ => rfl | ⟨1, _⟩ => rfl)

/-- The transposed weights %59 at row `k`, column `i 1` are the weights at row `i 1`, column `k`. -/
private theorem widx60 (i : S100000x128.Idx) (k : Fin 128) :
    idx_main_v59 (ridx_main_v60 i k) = ix2 (n0 := 128) (n1 := 128) (i 1) k :=
  funext fun a => Fin.ext (by match a with | ⟨0, _⟩ => rfl | ⟨1, _⟩ => rfl)

/-- The bias broadcast %26 along the nodes is read at the feature `i 1`. -/
private theorem bidx26 (i : S100000x128.Idx) :
    idx_main_v25 (idx_main_v26 i) = ix1 (n := 128) (i 1) :=
  funext fun a => Fin.ext (by match a with | ⟨0, _⟩ => rfl)

/-- The bias broadcast %57 along the nodes is read at the feature `i 1`. -/
private theorem bidx57 (i : S100000x128.Idx) :
    idx_main_v56 (idx_main_v57 i) = ix1 (n := 128) (i 1) :=
  funext fun a => Fin.ext (by match a with | ⟨0, _⟩ => rfl)

/-- The reference's first layer is the layer of the spec over the reference's neighbour mean. -/
private theorem layer_first (h : FVec Ideal S100000x128 .f32) (src dst : IVec S1600000 32)
    (Ws0 : FVec Ideal S128x128 .f32) (b0 : FVec Ideal S128 .f32) (Wn0 : FVec Ideal S128x128 .f32) :
    val_main_v30 (F := Ideal) h src dst Ws0 b0 Wn0 = layer1 h src dst Ws0 b0 Wn0 := by
  funext i
  rw [val_main_v30_apply, val_main_v27_apply, val_main_v24_apply, val_main_v26_apply, val_main_v25_apply,
    val_main_v29_apply]
  simp only [val_main_v23_apply, val_main_v28_apply, Ideal.addf_def, lidx24, widx24, lidx29, widx29, bidx26]
  rfl

/-- The reference's second layer is the layer of the spec, of the first layer's result and its neighbour mean. -/
private theorem layer_second (h : FVec Ideal S100000x128 .f32) (src dst : IVec S1600000 32)
    (Ws0 : FVec Ideal S128x128 .f32) (b0 : FVec Ideal S128 .f32) (Wn0 Ws1 : FVec Ideal S128x128 .f32)
    (b1 : FVec Ideal S128 .f32) (Wn1 : FVec Ideal S128x128 .f32) :
    val_main_v61 (F := Ideal) h src dst Ws0 b0 Wn0 Ws1 b1 Wn1
      = Cert.Sage.layer (val_main_v30 (F := Ideal) h src dst Ws0 b0 Wn0)
          (val_main_v53 (F := Ideal) h src dst Ws0 b0 Wn0) Ws1 Wn1 (fun j => b1 (ix1 (n := 128) j)) := by
  funext i
  rw [val_main_v61_apply, val_main_v58_apply, val_main_v55_apply, val_main_v57_apply, val_main_v56_apply,
    val_main_v60_apply]
  simp only [val_main_v54_apply, val_main_v59_apply, Ideal.addf_def, lidx55, widx55, lidx60, widx60, bidx57]
  rfl

/-- The reference's result: input + first layer + half the second layer, the second layer's neighbour mean taken of
    the first layer's result. -/
theorem result_eq (h : FVec Ideal S100000x128 .f32) (src dst : IVec S1600000 32)
    (Ws0 : FVec Ideal S128x128 .f32) (b0 : FVec Ideal S128 .f32) (Wn0 Ws1 : FVec Ideal S128x128 .f32)
    (b1 : FVec Ideal S128 .f32) (Wn1 : FVec Ideal S128x128 .f32) :
    val_main_v65 (F := Ideal) h src dst Ws0 b0 Wn0 Ws1 b1 Wn1
      = Cert.Sage.combine h (layer1 h src dst Ws0 b0 Wn0)
          (Cert.Sage.layer (layer1 h src dst Ws0 b0 Wn0) (neighMean (layer1 h src dst Ws0 b0 Wn0) src dst) Ws1 Wn1
            (fun j => b1 (ix1 (n := 128) j))) := by
  funext i
  rw [val_main_v65_apply, val_main_v62_apply, val_main_v64_apply, val_main_v63_apply, val_main_cst_14_apply,
    layer_second, mean_second, layer_first]
  simp only [Ideal.addf_def, Ideal.mulf_def, Ideal.ofBits_def]
  rw [mul_comm]
  rfl

end Cert.ReferenceIdeal.RefValue

end
-- ==== Proof.SrcRange.lean ====
/-
  The evident domain of the edge-source indices: each is a valid NumPy index of the 100000-row node table, a negative
  one counting from the end.
-/
import Idealize.ShloMosaic.PureOps.Ideal
import Idealize.ShloMosaic.Lib.ValueIdx

namespace Cert.NeighBridge

open Idealize.ShloMosaic

/-- Every edge's source is a valid index of the 100000-row table, counting a negative one from the end. -/
def SrcInRange (src : IVec (⟨1, ![1600000]⟩ : Shape) 32) : Prop :=
  ∀ e : (⟨1, ![1600000]⟩ : Shape).Idx, -100000 ≤ (src e).toInt ∧ (src e).toInt < 100000

end Cert.NeighBridge
-- ==== Proof.NeighBridge.lean ====
/-
  Where every edge's source index is a valid NumPy index of the node table, -100000 ≤ src(e) < 100000, the kernel's
  neighbour mean and the reference's are the same array: the wrapped index is then a row, so the kernel's fill never
  applies and both gather the same rows; the per-node sums and degrees are the same terms; and at a node with incoming
  edges "the sum times the reciprocal of max(degree, 1)" is "the sum divided by max(degree, 1)", the divisor being at
  least one, hence not zero; at every other node both are zero.
-/
import proofs.«400944_j14602888806923_1_alg».proof.Proof.KerNeigh
import proofs.«400944_j14602888806923_1_alg».proof.Proof.RefRead
import proofs.«400944_j14602888806923_1_alg».proof.Proof.SrcRange
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.ReduceAll
import Idealize.ShloMosaic.Lib.IdealHost
import Idealize.ShloMosaic.PureOps.Ideal.Laws

set_option maxRecDepth 16384

noncomputable section

namespace Cert.NeighBridge

open Idealize.ShloMosaic Idealize.ShloMosaic.ValueIdx

/-! ### The wrapped index is a row -/

/-- 32-bit arithmetic: for a word `s` with -100000 ≤ s < 100000 (signed), the word "s + 100000 if s < 0, else s" is
    signed-between 0 and 99999, so both compares of the range test give the bit one. No wrap occurs: the sum stays far
    inside the signed 32-bit range. -/
private theorem wrap_word (s : BitVec 32) (h1 : -100000 ≤ s.toInt) (h2 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have h0 : (0#32 : BitVec 32).toInt = 0 := by decide
  have hc : (100000#32 : BitVec 32).toInt = 100000 := by decide
  have hm : (99999#32 : BitVec 32).toInt = 99999 := by decide
  by_cases hneg : s.toInt < 0
  · have hb : IntOp.cmpi .slt s 0#32 = 1#1 := by
      simp only [IntOp.cmpi, BitVec.slt, h0, hneg, decide_true, BitVec.ofBool_true]; rfl
    have hw : (s + 100000#32).toInt = s.toInt + 100000 := by
      rw [BitVec.toInt_add, hc]
      simp only [Int.bmod]
      split_ifs <;> omega
    rw [hb, select_one]
    simp only [IntOp.cmpi, IntOp.addi, IntOp.andi, BitVec.sle, h0, hm, hw]
    have e1 : decide (0 ≤ s.toInt + 100000) = true := decide_eq_true (by omega)
    have e2 : decide (s.toInt + 100000 ≤ 99999) = true := decide_eq_true (by omega)
    rw [e1, e2]; decide
  · have hb : IntOp.cmpi .slt s 0#32 = 0#1 := by
      simp only [IntOp.cmpi, BitVec.slt, h0, hneg, decide_false, BitVec.ofBool_false]; rfl
    rw [hb, select_zero]
    simp only [IntOp.cmpi, IntOp.andi, BitVec.sle, h0, hm]
    have e1 : decide (0 ≤ s.toInt) = true := decide_eq_true (by omega)
    have e2 : decide (s.toInt ≤ 99999) = true := decide_eq_true (by omega)
    rw [e1, e2]; decide

/-- A left fold by `and` from the bit one over words that are all one is one. -/
private theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by `and` from the constant one of an array of ones is one at every result index. -/
private theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- Under the range every edge's wrapped index passes the kernel's range test. -/
private theorem inRange_one (src : IVec (⟨1, ![1600000]⟩ : Shape) 32) (hsrc : SrcInRange src)
    (e : (⟨1, ![1600000]⟩ : Shape).Idx) :
    Cert.KernelIdeal.Agg.inRange (Cert.KernelIdeal.Agg.wrapIdx src) e = 1#1 := by
  unfold Cert.KernelIdeal.Agg.inRange
  apply reduce_andi_ones
  intro k
  exact wrap_word (src _) (hsrc _).1 (hsrc _).2

/-- So the kernel's filled gather is the plain gather, the one the reference performs. -/
private theorem takeFill_eq (x : FVec Ideal (⟨2, ![100000, 128]⟩ : Shape) .f32) (src : IVec (⟨1, ![1600000]⟩ : Shape) 32)
    (hsrc : SrcInRange src) :
    Cert.KernelIdeal.Agg.takeFill x src = Cert.ReferenceIdeal.Read.val_main_v6 (F := Ideal) x src := by
  funext i
  unfold Cert.KernelIdeal.Agg.takeFill
  rw [select_apply]
  have hm : broadcastInDim Cert.KernelIdeal.S1600000x128 ![0] Cert.KernelIdeal.Gen.bcast_S1600000_S1600000x128_0
      (Cert.KernelIdeal.Agg.inRange (Cert.KernelIdeal.Agg.wrapIdx src)) i = 1#1 :=
    inRange_one src hsrc _
  rw [hm, select_one]
  rfl

/-! ### The mean at a node -/

/-- A per-node vector laid as an [N,1] column and then along the 128 features reads, at (r, j), the vector at r. -/
private theorem bcast_node {α : Type} (v : Cert.KernelIdeal.S100000.Idx → α) (i : Cert.KernelIdeal.S100000x128.Idx) :
    broadcastInDim Cert.KernelIdeal.S100000x128 ![0, 1] Cert.KernelIdeal.Gen.bcast_S100000x1_S100000x128_0_1
      (broadcastInDim Cert.KernelIdeal.S100000x1 ![0] Cert.KernelIdeal.Gen.bcast_S100000_S100000x1_0 v) i
      = v (Cert.ReferenceIdeal.Read.idx_main_v14 (Cert.ReferenceIdeal.Read.idx_main_call0_v1 i)) := by
  rw [broadcastInDim_apply _ Cert.KernelIdeal.Gen.bcast_S100000x1_S100000x128_0_1 _ i
    (Cert.ReferenceIdeal.Read.idx_main_call0_v1 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])]
  exact broadcastInDim_apply _ Cert.KernelIdeal.Gen.bcast_S100000_S100000x1_0 v _
    (Cert.ReferenceIdeal.Read.idx_main_v14 (Cert.ReferenceIdeal.Read.idx_main_call0_v1 i)) (fun a => match a with
      | ⟨0, _⟩ => by
        show (i 0).val = if (100000 : Nat) = 1 then 0 else (i 0).val
        rw [if_neg (by decide)])

/-- The scalar step. Under the same mask bit `b`: where it is one, the sum times the reciprocal of max(d, 1) is the sum
    divided by max(d, 1), the divisor being at least one and so not zero; where it is not, both sides are the zero. No
    finiteness of the sum or of the degree is used. -/
private theorem mean_scalar (b : BitVec 1) (S d one zero : EReal) (h1 : one = 1) :
    Scalar.select b (S * Scalar.select b (Ideal.div one (max d one)) zero) zero
      = Scalar.select b (Ideal.div S (max d one)) zero := by
  subst h1
  by_cases hb : b = 1#1
  · subst hb
    rw [select_one, select_one, select_one]
    exact Ideal.mul_one_div (ne_of_gt (lt_of_lt_of_le zero_lt_one (le_max_right d 1)))
  · have hz := eq_zero_of_ne_one hb
    subst hz
    rw [select_zero, select_zero]

/-- The kernel's reciprocal-of-degree array at a node, for any degree array `D`. -/
private theorem invDeg_apply (D : FVec Ideal Cert.KernelIdeal.S100000 .f32) (r : Cert.KernelIdeal.S100000.Idx) :
    select (cmpf .ogt D (broadcastInDim Cert.KernelIdeal.S100000 ![] Cert.KernelIdeal.Gen.bcast_S_S100000 (constant Cert.KernelIdeal.S_ .f32 0x00000000#32)))
      (Host.divf (broadcastInDim Cert.KernelIdeal.S100000 ![] Cert.KernelIdeal.Gen.bcast_S_S100000 (constant Cert.KernelIdeal.S_ .f32 0x3F800000#32))
        (maximumf D (broadcastInDim Cert.KernelIdeal.S100000 ![] Cert.KernelIdeal.Gen.bcast_S_S100000 (constant Cert.KernelIdeal.S_ .f32 0x3F800000#32))))
      (broadcastInDim Cert.KernelIdeal.S100000 ![] Cert.KernelIdeal.Gen.bcast_S_S100000 (constant Cert.KernelIdeal.S_ .f32 0x00000000#32)) r
    = Scalar.select (FloatOps.cmpf .ogt (D r) (Ideal.ofBits .f32 0x00000000#32))
        (Ideal.div (Ideal.ofBits .f32 0x3F800000#32) (max (D r) (Ideal.ofBits .f32 0x3F800000#32)))
        (Ideal.ofBits .f32 0x00000000#32) := rfl

/-- The kernel's has-a-neighbour bit at a node, for any degree array `D`. -/
private theorem hasN_apply (D : FVec Ideal Cert.KernelIdeal.S100000 .f32) (r : Cert.KernelIdeal.S100000.Idx) :
    cmpf .ogt D (broadcastInDim Cert.KernelIdeal.S100000 ![] Cert.KernelIdeal.Gen.bcast_S_S100000 (constant Cert.KernelIdeal.S_ .f32 0x00000000#32)) r
    = FloatOps.cmpf .ogt (D r) (Ideal.ofBits .f32 0x00000000#32) := rfl

/-- The zero array at an index. -/
private theorem zeros_apply (i : Cert.KernelIdeal.S100000x128.Idx) :
    broadcastInDim Cert.KernelIdeal.S100000x128 ![] Cert.KernelIdeal.Gen.bcast_S_S100000x128
      (constant (F := Ideal) Cert.KernelIdeal.S_ .f32 0x00000000#32) i = Ideal.ofBits .f32 0x00000000#32 := rfl

/-- The two programs' values at a node with degree array `D`, sum `S`: the same. -/
private theorem mean_at (D : FVec Ideal Cert.KernelIdeal.S100000 .f32) (S : EReal) (r : Cert.KernelIdeal.S100000.Idx)
    (i : Cert.KernelIdeal.S100000x128.Idx) :
    Scalar.select
      (cmpf CmpFPredicate.ogt D
        (broadcastInDim Cert.KernelIdeal.S100000 ![] Cert.KernelIdeal.Gen.bcast_S_S100000
          (constant (F := Ideal) Cert.KernelIdeal.S_ FTy.f32 0x00000000#32)) r)
      (S *
        select
          (cmpf CmpFPredicate.ogt D
            (broadcastInDim Cert.KernelIdeal.S100000 ![] Cert.KernelIdeal.Gen.bcast_S_S100000
              (constant (F := Ideal) Cert.KernelIdeal.S_ FTy.f32 0x00000000#32)))
          (Host.divf
            (broadcastInDim Cert.KernelIdeal.S100000 ![] Cert.KernelIdeal.Gen.bcast_S_S100000
              (constant (F := Ideal) Cert.KernelIdeal.S_ FTy.f32 0x3F800000#32))
            (maximumf D
              (broadcastInDim Cert.KernelIdeal.S100000 ![] Cert.KernelIdeal.Gen.bcast_S_S100000
                (constant (F := Ideal) Cert.KernelIdeal.S_ FTy.f32 0x3F800000#32))))
          (broadcastInDim Cert.KernelIdeal.S100000 ![] Cert.KernelIdeal.Gen.bcast_S_S100000
            (constant (F := Ideal) Cert.KernelIdeal.S_ FTy.f32 0x00000000#32))
          r)
      (broadcastInDim Cert.KernelIdeal.S100000x128 ![] Cert.KernelIdeal.Gen.bcast_S_S100000x128
        (constant (F := Ideal) Cert.KernelIdeal.S_ FTy.f32 0x00000000#32) i) =
    Scalar.select (FloatOps.cmpf CmpFPredicate.ogt (D r) (FloatOps.ofBits FTy.f32 0x00000000#32))
      (FloatOps.hostDivf S (FloatOps.maximumf (D r) (FloatOps.ofBits FTy.f32 0x3F800000#32)))
      (FloatOps.ofBits FTy.f32 0x00000000#32) := by
  rw [invDeg_apply, hasN_apply, zeros_apply, Ideal.hostDivf_def, Ideal.maximumf_def, Ideal.ofBits_def, Ideal.ofBits_def]
  exact mean_scalar _ _ _ _ _ Ideal.ofBits_one_f32

/-- Under that range the two programs aggregate the same neighbour mean, whatever the node features. -/
theorem neighMean_eq (x : FVec Ideal (⟨2, ![100000, 128]⟩ : Shape) .f32) (src dst : IVec (⟨1, ![1600000]⟩ : Shape) 32)
    (hsrc : SrcInRange src) :
    Cert.KernelIdeal.Agg.neighMean (F := Ideal) x src dst = Cert.ReferenceIdeal.Read.val_main_v22 (F := Ideal) x src dst := by
  have hg := takeFill_eq x src hsrc
  -- the degrees and, the gathers being equal, the per-node sums are the same terms of the two programs
  have h_deg : Cert.KernelIdeal.Agg.degree (F := Ideal) dst = Cert.ReferenceIdeal.Read.val_main_v13 (F := Ideal) dst := rfl
  have h_S : Host.scatterAdd Cert.KernelIdeal.scatter_S100000x128_S1600000x1_S1600000x128_1_0_0_1
        (broadcastInDim Cert.KernelIdeal.S100000x128 ![] Cert.KernelIdeal.Gen.bcast_S_S100000x128
          (constant (F := Ideal) Cert.KernelIdeal.S_ FTy.f32 0x00000000#32))
        (broadcastInDim Cert.KernelIdeal.S1600000x1 ![0] Cert.KernelIdeal.Gen.bcast_S1600000_S1600000x1_0 dst)
        (Cert.ReferenceIdeal.Read.val_main_v6 (F := Ideal) x src)
      = Cert.ReferenceIdeal.Read.val_main_v9 (F := Ideal) x src dst := rfl
  funext i
  unfold Cert.KernelIdeal.Agg.neighMean
  rw [hg, h_S, select_apply, bcast_node, mulf_apply, bcast_node]
  unfold Cert.KernelIdeal.Agg.invDegree Cert.KernelIdeal.Agg.hasNeigh
  rw [h_deg]
  rw [Cert.ReferenceIdeal.Read.val_main_v22_apply, Cert.ReferenceIdeal.Read.val_main_call0_v1_apply,
    Cert.ReferenceIdeal.Read.val_main_v16_apply, Cert.ReferenceIdeal.Read.val_main_v14_apply,
    Cert.ReferenceIdeal.Read.val_main_v15_apply, Cert.ReferenceIdeal.Read.val_main_cst_3_apply,
    Cert.ReferenceIdeal.Read.val_main_v21_apply, Cert.ReferenceIdeal.Read.val_main_v20_apply,
    Cert.ReferenceIdeal.Read.val_main_v19_apply, Cert.ReferenceIdeal.Read.val_main_v18_apply,
    Cert.ReferenceIdeal.Read.val_main_v17_apply, Cert.ReferenceIdeal.Read.val_main_cst_4_apply,
    Cert.ReferenceIdeal.Read.val_main_call0_v2_apply, Cert.ReferenceIdeal.Read.val_main_call0_v0_apply,
    Cert.ReferenceIdeal.Read.val_main_cst_5_apply]
  have h_r : Cert.ReferenceIdeal.Read.idx_main_v19 (Cert.ReferenceIdeal.Read.idx_main_v20 i)
      = Cert.ReferenceIdeal.Read.idx_main_v14 (Cert.ReferenceIdeal.Read.idx_main_call0_v1 i) := rfl
  rw [h_r]
  -- from here the sum and the degree are opaque values
  generalize Cert.ReferenceIdeal.Read.val_main_v9 (F := Ideal) x src dst i = S
  generalize Cert.ReferenceIdeal.Read.val_main_v13 (F := Ideal) dst = D
  generalize Cert.ReferenceIdeal.Read.idx_main_v14 (Cert.ReferenceIdeal.Read.idx_main_call0_v1 i) = r
  exact mean_at D S r i

end Cert.NeighBridge

end
-- ==== Proof.PreDecode.lean ====
/-
  Reading the precondition: where it holds (its word is one), every edge's source index lies in
  -100000 ≤ src(e) < 100000. Only its last two conjuncts are opened: the all-reductions of the two comparisons of src.
-/
import proofs.«400944_j14602888806923_1_alg».proof.Defs
import proofs.«400944_j14602888806923_1_alg».proof.Proof.Gen.Pre_finite_inputs
import proofs.«400944_j14602888806923_1_alg».proof.Proof.SrcRange
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.ShloMosaic.TcCoe Idealize.ShloMosaic.ValueIdx Idealize.SL.Sem

/-- The rank-0 shape has a single index. -/
private instance subsingleton_scalarIdx : Subsingleton (Cert.Pre_finite_inputs.S_).Idx :=
  ⟨fun a b => funext fun d => d.elim0⟩

/-- The word -100000 read signed. -/
private theorem toInt_lo : (4294867296#32 : BitVec 32).toInt = -100000 := by decide

/-- The word 100000 read signed. -/
private theorem toInt_hi : (100000#32 : BitVec 32).toInt = 100000 := by decide

/-- The last part of the predicate is the conjunction X ∧ all(src ≥ -100000) ∧ all(src < 100000); where its word is one,
    each of the two all-reductions is one, hence each comparison is one at every edge, and a signed comparison that is one
    is the order of the signed readings. -/
private theorem range_of_part2 [Cert.Pre_finite_inputs.Facts] (src : IVec Cert.Pre_finite_inputs.S1600000 32)
    (X : IVec Cert.Pre_finite_inputs.S_ 1) (j : (Cert.Pre_finite_inputs.S_).Idx)
    (h : Cert.Pre_finite_inputs.fn_part2 (F := Ideal) src X j = 1#1) (e : (Cert.Pre_finite_inputs.S1600000).Idx) :
    -100000 ≤ (src e).toInt ∧ (src e).toInt < 100000 := by
  unfold Cert.Pre_finite_inputs.fn_part2 at h
  dsimp only at h
  obtain ⟨h1, hB⟩ := IntOp.andi_eq_one.1 h
  obtain ⟨-, hA⟩ := IntOp.andi_eq_one.1 h1
  have hAe := Host.reduce_andi_all _ _ _ _ j hA e
  have hBe := Host.reduce_andi_all _ _ _ _ j hB e
  have hlo : (4294867296#32 : BitVec 32).toInt ≤ (src e).toInt := IntOp.cmpi_sge.1 hAe
  have hhi : (src e).toInt < (100000#32 : BitVec 32).toInt := IntOp.cmpi_slt.1 hBe
  rw [toInt_lo] at hlo
  rw [toInt_hi] at hhi
  exact ⟨hlo, hhi⟩

/-- The kernel's precondition gives the range of its edge-source argument. -/
theorem srcInRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.NeighBridge.SrcInRange (m ((c.tc : Thread Cert.KernelIdeal.nD Cert.KernelIdeal.τ).loc Cert.KernelIdeal.main_arg1)) := by
  intro e
  have h := congrFun (hpre c) ValueIdx.ix0
  unfold Cert.Pre_finite_inputs.fn Cert.Pre_finite_inputs.fn_part1 at h
  dsimp only at h
  exact range_of_part2 _ _ _ h e

end Cert.PreDecode

end
-- ==== Proof.lean ====
/-
  Equivalence of a two-layer mean-aggregating graph network written as two node-tiled kernels with the gather and
  scatter-add left to the host, and its plain reference: both compute, at node r and feature j,
      out = h + t1 + ½ · t2,   t = x · Wsᵀ + b + mean-of-incoming-neighbours(x) · Wnᵀ   (t1 on h, t2 on t1),
  on the extended reals. The kernels' matrix products into zero accumulators and the reference's dot products are the
  same sums over the 128 input features; the tiles of 5000 nodes cover the node axis; the kernel scales the neighbour
  sum by a precomputed reciprocal of max(degree, 1) where the reference divides by it, the same value because the
  divisor is at least one; and the kernel's out-of-range fill of the gather never applies where every source index is
  a valid index of the node table, -100000 ≤ src < 100000, which the precondition states. No finiteness is used.
-/
import proofs.«400944_j14602888806923_1_alg».proof.Defs
import proofs.«400944_j14602888806923_1_alg».proof.Proof.Gen.Kernel
import proofs.«400944_j14602888806923_1_alg».proof.Proof.Gen.Kernel.Skeleton
import proofs.«400944_j14602888806923_1_alg».proof.Proof.Gen.Kernel.Launch
import proofs.«400944_j14602888806923_1_alg».proof.Proof.Gen.Kernel.Points
import proofs.«400944_j14602888806923_1_alg».proof.Proof.Gen.Kernel.Frame
import proofs.«400944_j14602888806923_1_alg».proof.Proof.Gen.KernelIdeal
import proofs.«400944_j14602888806923_1_alg».proof.Proof.Gen.KernelIdeal.Skeleton
import proofs.«400944_j14602888806923_1_alg».proof.Proof.Gen.KernelIdeal.Launch
import proofs.«400944_j14602888806923_1_alg».proof.Proof.Gen.KernelIdeal.Points
import proofs.«400944_j14602888806923_1_alg».proof.Proof.Gen.KernelIdeal.Frame
import proofs.«400944_j14602888806923_1_alg».proof.Proof.Gen.ReferenceIdeal
import proofs.«400944_j14602888806923_1_alg».proof.Proof.Gen.Pre_finite_inputs
import proofs.«400944_j14602888806923_1_alg».proof.Proof.RefRun
import proofs.«400944_j14602888806923_1_alg».proof.Proof.RefRead
import proofs.«400944_j14602888806923_1_alg».proof.Proof.KernelRun
import proofs.«400944_j14602888806923_1_alg».proof.Proof.KernelValue
import proofs.«400944_j14602888806923_1_alg».proof.Proof.RefValue
import proofs.«400944_j14602888806923_1_alg».proof.Proof.NeighBridge
import proofs.«400944_j14602888806923_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network's result, index by index. -/
theorem algebraic : Cert.algebraic_KernelIdeal_ReferenceIdeal := by
  intro m ρ m' ρ' hpre hagree
  refine ⟨fun c => Cert.KernelIdeal.KValue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.result_array m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    have hsrc := Cert.PreDecode.srcInRange_of_pre m hpre c
    rw [Cert.ReferenceIdeal.Read.val_main_v65_eq, h0, h1, h2, h3, h4, h5, h6, h7, h8,
      Cert.ReferenceIdeal.RefValue.result_eq]
    have hl : Cert.ReferenceIdeal.RefValue.layer1
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
        = Cert.KernelIdeal.KValue.layer1
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
      unfold Cert.ReferenceIdeal.RefValue.layer1 Cert.KernelIdeal.KValue.layer1
      rw [Cert.ReferenceIdeal.RefValue.neighMean, ← Cert.NeighBridge.neighMean_eq _ _ _ hsrc]
    rw [hl]
    unfold Cert.KernelIdeal.KValue.network
    rw [Cert.ReferenceIdeal.RefValue.neighMean, ← Cert.NeighBridge.neighMean_eq _ _ _ hsrc]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
